-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 90
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S2000x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S50000x128, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S_, .f32⟩
  | 83 => ⟨S50000, .f32⟩
  | 84 => ⟨S50000, .f32⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x1, .f32⟩
  | 119 => ⟨S850000x128, .f32⟩
  | 120 => ⟨S850000x128, .f32⟩
  | 121 => ⟨S_, .f32⟩
  | 122 => ⟨S50000x128, .f32⟩
  | 123 => ⟨S850000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x128, .f32⟩
  | 7 => ⟨S50000x128, .f32⟩
  | 8 => ⟨S50000x128, .f32⟩
  | 9 => ⟨S_, .f32⟩
  | 10 => ⟨S50000, .f32⟩
  | 11 => ⟨S50000x1, .f32⟩
  | 12 => ⟨S50000x1, .f32⟩
  | 13 => ⟨S50000x128, .f32⟩
  | 14 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call3_cst : Ref sig .tc := ⟨.hbm, 128, rfl⟩
abbrev main_call3_v0 : Ref sig .tc := ⟨.hbm, 129, rfl⟩
abbrev main_call3_cst_0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_v92 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The mathematics of the two-layer graph convolution, written once, row by row.

  Every stage that is not the shared edge aggregation acts on each row of a matrix of 128 columns by itself:
  a row times a 128 × 128 weight matrix (`mmRow`), the rectifier entry by entry (`reluRow`), and the logarithm of the
  softmax of a row (`lsmRow`: the row minus its maximum, minus the logarithm of the sum of the exponentials of that
  difference). `rowMap Φ y` applies a row function `Φ` to every row of `y`. Because such a stage reads only the row it
  writes, it commutes with cutting the matrix into blocks of consecutive rows (`rowMap_block`): this is all that joins a
  computation tiled over blocks of rows to the same computation on the whole matrix.
-/
import Idealize.ShloMosaic.PureOps.Ideal
import Idealize.ShloMosaic.Lib.ValueIdx

noncomputable section

open scoped BigOperators

namespace Cert.Gcn

open Idealize.ShloMosaic Idealize.ShloMosaic.ValueIdx

/-- The shape of a matrix of `n` rows and `d` columns. -/
abbrev Mat (n d : Nat) : Shape := ⟨2, ![n, d]⟩

/-- The row coordinate of a matrix index, as a number below `n`. -/
abbrev rowOf {n d : Nat} (i : (Mat n d).Idx) : Fin n := ⟨(i 0).val, idx2_lt0 i⟩
/-- The column coordinate of a matrix index, as a number below `d`. -/
abbrev colOf {n d : Nat} (i : (Mat n d).Idx) : Fin d := ⟨(i 1).val, idx2_lt1 i⟩

theorem ix2_rowOf_colOf {n d : Nat} (i : (Mat n d).Idx) : ix2 (rowOf i) (colOf i) = i := by
  funext a; match a with | ⟨0, _⟩ => rfl | ⟨1, _⟩ => rfl

/-- Row `p` of a matrix, as a function of the column. -/
def rowAt {n : Nat} (y : (Mat n 128).Idx → EReal) (p : Fin n) : Fin 128 → EReal := fun k => y (ix2 p k)

/-- A function of one row applied to every row. -/
def rowMap {n : Nat} (Φ : (Fin 128 → EReal) → Fin 128 → EReal) (y : (Mat n 128).Idx → EReal) : (Mat n 128).Idx → EReal :=
  fun i => Φ (rowAt y (rowOf i)) (colOf i)

theorem rowMap_ix2 {n : Nat} (Φ : (Fin 128 → EReal) → Fin 128 → EReal) (y : (Mat n 128).Idx → EReal) (p : Fin n) (q : Fin 128) :
    rowMap Φ y (ix2 p q) = Φ (rowAt y p) q := rfl

/-- A row times a weight matrix: entry `q` is the sum over `k` of the row's entry `k` times the weight at (k, q). -/
def mmRow (w : (Mat 128 128).Idx → EReal) (row : Fin 128 → EReal) (q : Fin 128) : EReal :=
  ∑ k : Fin 128, row k * w (ix2 k q)

/-- The float zero both programs write as the pattern of all zero bits. -/
abbrev zeroF : EReal := Ideal.ofBits .f32 0x00000000#32
/-- The float both programs start a maximum from: the pattern of minus infinity. -/
abbrev negInfF : EReal := Ideal.ofBits .f32 0xFF800000#32

/-- The rectifier on a row: the larger of each entry and zero. -/
def reluRow (row : Fin 128 → EReal) : Fin 128 → EReal := fun k => max (row k) zeroF

/-- The largest entry of a row, as the fold of `max` from minus infinity over the 128 columns. -/
def rowMax (row : Fin 128 → EReal) : EReal := (Finset.univ : Finset (Fin 128)).fold max negInfF row

/-- The logarithm of the softmax of a row: with `z k` the entry minus the row's maximum, entry `q` is
    `z q` minus the logarithm of the sum of the exponentials of `z`. -/
def lsmRow (row : Fin 128 → EReal) (q : Fin 128) : EReal :=
  (row q - rowMax row) - Ideal.log (∑ k : Fin 128, Ideal.exp (row k - rowMax row))

/-- Maximum with minus infinity on the left changes nothing. -/
theorem max_negInfF (y : EReal) : max negInfF y = y := by
  simp [negInfF, Ideal.ofBits, Ideal.ieee]

/-- The block of `b` consecutive rows of `y` that starts at row `off`. -/
def rowBlock {n b : Nat} (y : (Mat n 128).Idx → EReal) (off : Nat) (h : off + b ≤ n) : (Mat b 128).Idx → EReal :=
  fun j => y (ix2 (⟨off + (j 0).val, by have := idx2_lt0 j; omega⟩ : Fin n) (colOf j))

/-- A stage that acts row by row commutes with taking a block of rows. -/
theorem rowMap_block {n b : Nat} (Φ : (Fin 128 → EReal) → Fin 128 → EReal) (y : (Mat n 128).Idx → EReal) (off : Nat)
    (h : off + b ≤ n) : rowMap Φ (rowBlock y off h) = rowBlock (rowMap Φ y) off h := by
  funext j
  show Φ (rowAt (rowBlock y off h) (rowOf j)) (colOf j) = Φ (rowAt y _) _
  rfl

end Cert.Gcn

end
-- ==== Proof.KPay01.lean ====
/-
  What the two matrix-product kernel bodies compute on one block of 2000 rows, read at the exact instance.

  The first body multiplies the block by the 128 × 128 weights; the second takes the larger of each entry and zero first.
  Changing the float format is the identity on exact values and the product accumulates into zero, so each output
  entry (p, q) is the sum over k of the (rectified) entry (p, k) of the block times the weight at (k, q): the row
  function `mmRow`, after `reluRow` in the second body, applied to every row of the block.
-/
import proofs.«146059_j75814762709760_1_alg».proof.Proof.Gen.KernelIdeal.Skeleton
import proofs.«146059_j75814762709760_1_alg».proof.Proof.Spec
import Idealize.ShloMosaic.PureOps.Ideal.Laws
import Idealize.ShloMosaic.Lib.ValueIdx
import Idealize.ShloMosaic.Lib.Pipeline.Value

noncomputable section

open scoped BigOperators

namespace Cert.Gcn

open Idealize.ShloMosaic Idealize.ShloMosaic.ValueIdx Cert.KernelIdeal Cert.KernelIdeal.Gen

/-- Row coordinate of the left operand's index: the output's row. -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Column coordinate of the left operand's index: the contraction position. -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- Row coordinate of the right operand's index: the contraction position. -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- Column coordinate of the right operand's index: the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, read at entry (p, q): the sum over k of the left operand at (p, k) times
    the right operand at (k, q). -/
theorem mm_zero_apply {φ₁ φ₂ : FTy} (a : FVec Ideal S2000x128 φ₁) (w : FVec Ideal S128x128 φ₂) (p : Fin 2000) (q : Fin 128) :
    FloatOps.matmul dot_S2000x128_S128x128_S2000x128_1_0_0_1_n_n none a w (constant (F := Ideal) S2000x128 .f32 0x00000000#32) (ix2 p q)
      = ∑ k : Fin 128, a (ix2 p k) * w (ix2 k q) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The first body's product: every row of the block times the weights. -/
theorem pay0_eq (x0 : Vec Ideal S2000x128 .f32) (x1 : Vec Ideal S128x128 .f32) :
    k0_pay1 (F := Ideal) x0 x1 = rowMap (mmRow x1) x0 := by
  funext j
  obtain ⟨p, q, rfl⟩ : ∃ (p : Fin 2000) (q : Fin 128), j = ix2 p q := ⟨j 0, j 1, eq_ix2 j⟩
  unfold k0_pay1
  refine (mm_zero_apply _ _ p q).trans ?_
  rfl

/-- The second body's product: every row of the block, rectified, times the weights. -/
theorem pay1_eq (x0 : Vec Ideal S2000x128 .f32) (x1 : Vec Ideal S128x128 .f32) :
    k1_pay1 (F := Ideal) x0 x1 = rowMap (fun row => mmRow x1 (reluRow row)) x0 := by
  funext j
  obtain ⟨p, q, rfl⟩ : ∃ (p : Fin 2000) (q : Fin 128), j = ix2 p q := ⟨j 0, j 1, eq_ix2 j⟩
  unfold k1_pay1
  refine (mm_zero_apply _ _ p q).trans ?_
  rw [shapeCast_self]
  rfl

end Cert.Gcn

end
-- ==== Proof.KPay2.lean ====
/-
  What the log-softmax kernel body computes on one block of 2000 rows, read at the exact instance.

  Per row: the maximum over the 128 lanes (a lane reduction from minus infinity), the row minus that maximum, the sum
  over the lanes of the exponentials of the difference, and the difference minus the logarithm of that sum. The column
  vectors the body passes between these steps (a [2000] vector cast to [2000, 1] and broadcast along the lanes) read, at
  entry (p, q), as the row's value at p. So the body is the row function `lsmRow` applied to every row of the block.
-/
import proofs.«146059_j75814762709760_1_alg».proof.Proof.Gen.KernelIdeal.Skeleton
import proofs.«146059_j75814762709760_1_alg».proof.Proof.Spec
import Idealize.ShloMosaic.PureOps.Ideal.Laws
import Idealize.ShloMosaic.Lib.ValueIdx
import Idealize.ShloMosaic.Lib.Pipeline.Value

noncomputable section

open scoped BigOperators

namespace Cert.Gcn

open Idealize.ShloMosaic Idealize.ShloMosaic.ValueIdx Cert.KernelIdeal Cert.KernelIdeal.Gen

/-- The index a lane reduction of a [2000, 128] block inserts at row `p` and lane `k` is (p, k). -/
theorem lift_row (h : S2000x128.Reduces [1] S2000) (p : Fin 2000) (k : Fin 128) :
    h.lift (ix1 p) k = ix2 p k := by
  funext c; apply Fin.ext; fin_cases c <;> rfl

/-- The lane maximum of the block, from minus infinity, read at row `p`: the maximum of that row. -/
theorem laneMax_apply (v : FVec Ideal S2000x128 .f32) (h : S2000x128.Reduces [1] S2000) (hφ : FKind.Formats .f32)
    (hacc : (0xFF800000#32 : BitVec 32) = FKind.maximumf.neutral .f32 hφ) (p : Fin 2000) :
    multiReduction .maximumf [1] S2000 v 0xFF800000#32 h hφ hacc (ix1 p) = rowMax (rowAt v p) := by
  rw [Ideal.multiReduction_maximumf_single]
  unfold rowMax
  show (Finset.univ : Finset (Fin 128)).fold max negInfF (v ∘ h.lift (ix1 p)) = _
  congr 1
  funext k
  exact congrArg v (lift_row h p k)

/-- The lane sum of the block read at row `p`: the sum of that row. -/
theorem laneSum_apply (v : FVec Ideal S2000x128 .f32) (h : S2000x128.Reduces [1] S2000) (hφ : FKind.Formats .f32)
    (hacc : (0x00000000#32 : BitVec 32) = FKind.add.neutral .f32 hφ) (p : Fin 2000) :
    multiReduction .add [1] S2000 v 0x00000000#32 h hφ hacc (ix1 p) = ∑ k : Fin 128, v (ix2 p k) := by
  rw [Ideal.multiReduction_add_single]
  show ∑ k : Fin 128, v (h.lift (ix1 p) k) = _
  exact Finset.sum_congr rfl fun k _ => congrArg v (lift_row h p k)

/-- A [2000] vector cast to a [2000, 1] column reads, at (p, 0), as the vector at p. -/
theorem colCast_apply {α : Type} (w : S2000.Idx → α) (h : S2000.ShapeCasts S2000x1) (p : Fin 2000) :
    shapeCast S2000x1 w h (ix2 p (0 : Fin 1)) = w (ix1 p) := by
  refine shapeCast_apply w h _ (ix1 p) ?_
  rw [Shape.rowMajor_val_one, Shape.rowMajor_val_two]
  show p.val = p.val * 1 + 0
  omega

/-- A [2000, 1] column broadcast along the lanes reads, at (p, q), as the column at (p, 0). -/
theorem colBcast_apply {α : Type} (w : S2000x1.Idx → α) (h : S2000x1.Broadcasts S2000x128) (p : Fin 2000) (q : Fin 128) :
    broadcastTo S2000x128 w h (ix2 p q) = w (ix2 p (0 : Fin 1)) := by
  refine broadcastTo_apply w h _ _ ?_
  intro a
  fin_cases a
  · rfl
  · rfl

/-- The row maximum as the body carries it — reduced over the lanes, cast to a column, broadcast back along the lanes —
    read at (p, q): the maximum of row p. -/
theorem maxCol_apply (v : FVec Ideal S2000x128 .f32) (hr : S2000x128.Reduces [1] S2000) (hφ : FKind.Formats .f32)
    (hacc : (0xFF800000#32 : BitVec 32) = FKind.maximumf.neutral .f32 hφ) (hc : S2000.ShapeCasts S2000x1)
    (hb : S2000x1.Broadcasts S2000x128) (p : Fin 2000) (q : Fin 128) :
    broadcastTo S2000x128 (shapeCast S2000x1 (multiReduction .maximumf [1] S2000 v 0xFF800000#32 hr hφ hacc) hc) hb (ix2 p q)
      = rowMax (rowAt v p) := by
  rw [colBcast_apply, colCast_apply, laneMax_apply]

/-- The logarithm of the lane sum as the body carries it — summed over the lanes, cast to a column, the logarithm taken,
    broadcast back along the lanes — read at (p, q): the logarithm of the sum of row p. -/
theorem logSumCol_apply (u : FVec Ideal S2000x128 .f32) (hr : S2000x128.Reduces [1] S2000) (hφ : FKind.Formats .f32)
    (hacc : (0x00000000#32 : BitVec 32) = FKind.add.neutral .f32 hφ) (hc : S2000.ShapeCasts S2000x1)
    (hb : S2000x1.Broadcasts S2000x128) (p : Fin 2000) (q : Fin 128) :
    broadcastTo S2000x128 (log (shapeCast S2000x1 (multiReduction .add [1] S2000 u 0x00000000#32 hr hφ hacc) hc)) hb (ix2 p q)
      = Ideal.log (∑ k : Fin 128, u (ix2 p k)) := by
  rw [colBcast_apply]
  show Ideal.log (shapeCast S2000x1 _ hc (ix2 p (0 : Fin 1))) = _
  rw [colCast_apply, laneSum_apply]

/-- The whole body over a block `v`, read at (p, q): the row function `lsmRow` of row p at q. The facts about the
    shapes and the two initial values are left general, so that the statement fits whatever proofs the body carries. -/
theorem lsmBody_apply (v : FVec Ideal S2000x128 .f32) (hr : S2000x128.Reduces [1] S2000) (hφ : FKind.Formats .f32)
    (hmax : (0xFF800000#32 : BitVec 32) = FKind.maximumf.neutral .f32 hφ)
    (hadd : (0x00000000#32 : BitVec 32) = FKind.add.neutral .f32 hφ) (hc : S2000.ShapeCasts S2000x1)
    (hb : S2000x1.Broadcasts S2000x128) (p : Fin 2000) (q : Fin 128) :
    subf (subf v (broadcastTo S2000x128 (shapeCast S2000x1 (multiReduction .maximumf [1] S2000 v 0xFF800000#32 hr hφ hmax) hc) hb))
      (broadcastTo S2000x128 (log (shapeCast S2000x1 (multiReduction .add [1] S2000
          (exp (subf v (broadcastTo S2000x128 (shapeCast S2000x1 (multiReduction .maximumf [1] S2000 v 0xFF800000#32 hr hφ hmax) hc) hb)))
          0x00000000#32 hr hφ hadd) hc)) hb) (ix2 p q)
      = lsmRow (rowAt v p) q := by
  unfold lsmRow
  rw [subf_apply, logSumCol_apply, subf_apply, maxCol_apply]
  refine congrArg (fun t => rowAt v p q - rowMax (rowAt v p) - Ideal.log t) ?_
  refine Finset.sum_congr rfl fun k _ => ?_
  show Ideal.exp (subf v _ (ix2 p k)) = _
  rw [subf_apply, maxCol_apply]
  rfl

/-- The third body: the logarithm of the softmax of every row of the block. -/
theorem pay2_eq (x0 : Vec Ideal S2000x128 .f32) :
    k2_pay1 (F := Ideal) x0 = rowMap lsmRow x0 := by
  funext j
  obtain ⟨p, q, rfl⟩ : ∃ (p : Fin 2000) (q : Fin 128), j = ix2 p q := ⟨j 0, j 1, eq_ix2 j⟩
  rw [rowMap_ix2]
  unfold k2_pay1
  rw [shapeCast_self]
  exact lsmBody_apply x0 _ _ _ _ _ _ p q

end Cert.Gcn

end
-- ==== Proof.KRegion.lean ====
/-
  What each of the three kernel regions leaves in its output array, as one function of the arrays it finds.

  Each region runs its body at 25 grid points; point t reads rows 2000 t … 2000 t + 1999 of the input array (and, in the two
  product regions, the whole weight matrix) and writes the same rows of the output. The body acts on each row by itself,
  so what point t writes back is block t of the row function applied to the whole input array, and the 25 blocks tile
  the 50000 rows: the output array ends as that row function of the input array.
-/
import proofs.«146059_j75814762709760_1_alg».proof.Proof.Gen.KernelIdeal.Frame
import proofs.«146059_j75814762709760_1_alg».proof.Proof.Spec
import proofs.«146059_j75814762709760_1_alg».proof.Proof.KPay01
import proofs.«146059_j75814762709760_1_alg».proof.Proof.KPay2
import Idealize.ShloMosaic.Lib.Pipeline.Value

noncomputable section

open scoped BigOperators

namespace Cert.Gcn

open Idealize.ShloMosaic Idealize.ShloMosaic.TcCoe Idealize.ShloMosaic.ValueIdx Idealize.SL.Sem Cert.KernelIdeal Cert.KernelIdeal.Gen

/-- The two zero offsets of a whole-buffer access, as a literal vector and as a constant function. -/
theorem zero_offsets : (![0, 0] : Fin 2 → Nat) = fun _ => 0 :=
  funext fun a => match a with | ⟨0, _⟩ => rfl | ⟨1, _⟩ => rfl

/-- A row function of a matrix `y`, read where a block of rows sits in it, is the row function of the block: if the
    block's index `j` sits at `emb j` — row `off` + its row, the same column — and the block `x` holds `y` there, then
    row by row the two sides apply `Φ` to the same row and read the same column. -/
theorem rowMap_read {n b : Nat} (Φ : (Fin 128 → EReal) → Fin 128 → EReal) (y : (Mat n 128).Idx → EReal)
    (x : (Mat b 128).Idx → EReal) (off : Nat) (emb : (Mat b 128).Idx → (Mat n 128).Idx)
    (hrow : ∀ j, ((emb j) 0).val = off + (j 0).val) (hcol : ∀ j, ((emb j) 1).val = (j 1).val)
    (hx : ∀ j, x j = y (emb j)) (j : (Mat b 128).Idx) : rowMap Φ x j = rowMap Φ y (emb j) := by
  show Φ (rowAt x (rowOf j)) (colOf j) = Φ (rowAt y (rowOf (emb j))) (colOf (emb j))
  have hc : colOf j = colOf (emb j) := Fin.ext (hcol j).symm
  have hr : rowAt x (rowOf j) = rowAt y (rowOf (emb j)) := by
    funext k
    show x (ix2 (rowOf j) k) = y (ix2 (rowOf (emb j)) k)
    rw [hx]
    congr 1
    funext a
    apply Fin.ext
    match a with
    | ⟨0, _⟩ => exact (hrow _).trans (hrow j).symm
    | ⟨1, _⟩ => exact hcol _
  rw [hc, hr]

variable (V : (c : Dev nD) → (b : Ref sig .tc) → Buf (Elt Ideal) ((c : Thread nD τ).loc b))

/-! ## Region 0 -/

/-- The printed index maps of region 0, decided over the 25 points: the row blocks of the operand and of the result
    move with the point, the weights stay at block 0. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Where point `t`'s result block sits in the result array: row 2000 t + the block's row, -/
theorem emb0_row (t : Fin cfg0.N) (j : S2000x128.Idx) :
    ((((cfg0.win 2).blk t).view.emb j) 0).val = 2000 * t.val + (j 0).val := by
  obtain ⟨-, -, -, -, e4, -⟩ := index0 t
  show win0_2.index t (0 : Fin 2) * 2000 + 1 * (j 0).val = _
  omega

/-- the same column. -/
theorem emb0_col (t : Fin cfg0.N) (j : S2000x128.Idx) :
    ((((cfg0.win 2).blk t).view.emb j) 1).val = (j 1).val := by
  obtain ⟨-, -, -, -, -, e5⟩ := index0 t
  show win0_2.index t (1 : Fin 2) * 128 + 1 * (j 1).val = _
  omega

/-- The operand's block at point `t` holds the operand where the result block sits. -/
theorem operand0_apply (c : Dev nD) (t : Fin cfg0.N) (j : S2000x128.Idx) :
    (iblk0 (F := Ideal) V c 0 t : Vec Ideal S2000x128 .f32) j = (V c main_arg0 : S50000x128.Idx → EReal) (((cfg0.win 2).blk t).view.emb j) := by
  obtain ⟨e0, e1, -, -, e4, e5⟩ := index0 t
  show (V c main_arg0 : S50000x128.Idx → EReal) (((cfg0.win 0).blk t).view.emb j) = _
  refine congrArg (V c main_arg0 : S50000x128.Idx → EReal) ?_
  funext a
  apply Fin.ext
  match a with
  | ⟨0, _⟩ => show win0_0.index t (0 : Fin 2) * 2000 + 1 * (j 0).val = win0_2.index t (0 : Fin 2) * 2000 + 1 * (j 0).val; omega
  | ⟨1, _⟩ => show win0_0.index t (1 : Fin 2) * 128 + 1 * (j 1).val = win0_2.index t (1 : Fin 2) * 128 + 1 * (j 1).val; omega

/-- The weights' block at every point is the whole weight matrix. -/
theorem weights0_eq (c : Dev nD) (t : Fin cfg0.N) :
    (iblk0 (F := Ideal) V c 1 t : Vec Ideal S128x128 .f32) = V c main_arg2 := by
  obtain ⟨-, -, e2, e3, -, -⟩ := index0 t
  funext j
  show (V c main_arg2 : S128x128.Idx → EReal) (((cfg0.win 1).blk t).view.emb j) = _
  refine congrArg (V c main_arg2 : S128x128.Idx → EReal) ?_
  funext a
  apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- What point `t` writes back is block `t` of the product of every row of the operand with the weights. -/
theorem flushed0_eq (c : Dev nD) (t : Fin cfg0.N) :
    (dat0 (F := Ideal) V c).flushed 2 t
      = ((cfg0.win 2).blk t).view.read (Elt Ideal) (rowMap (mmRow (V c main_arg2)) (V c main_arg0)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  rw [pay0_eq, weights0_eq]
  funext j
  exact rowMap_read (mmRow (V c main_arg2)) (V c main_arg0) (iblk0 V c 0 t) (2000 * t.val) (((cfg0.win 2).blk t).view.emb)
    (emb0_row t) (emb0_col t) (operand0_apply V c t) j

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every index of the result array is in the block of the point its row divided by 2000 names. -/
theorem cover0 (i : S50000x128.Idx) :
    ∃ t : Fin cfg0.N, (cfg0.win 2).flush t = true ∧ i ∈ ((cfg0.win 2).blk t).view.set := by
  have hN : grid0.N = 25 := Gen.N_0
  have hi0 : (i 0).val < 50000 := (i 0).isLt
  have hi1 : (i 1).val < 128 := (i 1).isLt
  let t : Fin cfg0.N := ⟨(i 0).val / 2000, by show (i 0).val / 2000 < grid0.N; omega⟩
  have ht : t.val = (i 0).val / 2000 := rfl
  obtain ⟨-, -, -, -, e4, e5⟩ := index0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- Region 0: the output array is every row of the first operand times the second operand. -/
theorem region0_value (c : Dev nD) :
    (dat0 (F := Ideal) V c).arrAt 2 cfg0.N = rowMap (mmRow (V c main_arg2)) (V c main_arg0) :=
  (dat0 V c).arrAt_eq_of_cover 2 _ (fun t _ => flushed0_eq V c t) cover0

/-! ## Region 1 -/

/-- The printed index maps of region 1, decided over the 25 points: the row blocks of the operand and of the result
    move with the point, the weights stay at block 0. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Where point `t`'s result block sits in the result array: row 2000 t + the block's row, -/
theorem emb1_row (t : Fin cfg1.N) (j : S2000x128.Idx) :
    ((((cfg1.win 2).blk t).view.emb j) 0).val = 2000 * t.val + (j 0).val := by
  obtain ⟨-, -, -, -, e4, -⟩ := index1 t
  show win1_2.index t (0 : Fin 2) * 2000 + 1 * (j 0).val = _
  omega

/-- the same column. -/
theorem emb1_col (t : Fin cfg1.N) (j : S2000x128.Idx) :
    ((((cfg1.win 2).blk t).view.emb j) 1).val = (j 1).val := by
  obtain ⟨-, -, -, -, -, e5⟩ := index1 t
  show win1_2.index t (1 : Fin 2) * 128 + 1 * (j 1).val = _
  omega

/-- The operand's block at point `t` holds the operand where the result block sits. -/
theorem operand1_apply (c : Dev nD) (t : Fin cfg1.N) (j : S2000x128.Idx) :
    (iblk1 (F := Ideal) V c 0 t : Vec Ideal S2000x128 .f32) j = (V c main_v48 : S50000x128.Idx → EReal) (((cfg1.win 2).blk t).view.emb j) := by
  obtain ⟨e0, e1, -, -, e4, e5⟩ := index1 t
  show (V c main_v48 : S50000x128.Idx → EReal) (((cfg1.win 0).blk t).view.emb j) = _
  refine congrArg (V c main_v48 : S50000x128.Idx → EReal) ?_
  funext a
  apply Fin.ext
  match a with
  | ⟨0, _⟩ => show win1_0.index t (0 : Fin 2) * 2000 + 1 * (j 0).val = win1_2.index t (0 : Fin 2) * 2000 + 1 * (j 0).val; omega
  | ⟨1, _⟩ => show win1_0.index t (1 : Fin 2) * 128 + 1 * (j 1).val = win1_2.index t (1 : Fin 2) * 128 + 1 * (j 1).val; omega

/-- The weights' block at every point is the whole weight matrix. -/
theorem weights1_eq (c : Dev nD) (t : Fin cfg1.N) :
    (iblk1 (F := Ideal) V c 1 t : Vec Ideal S128x128 .f32) = V c main_arg4 := by
  obtain ⟨-, -, e2, e3, -, -⟩ := index1 t
  funext j
  show (V c main_arg4 : S128x128.Idx → EReal) (((cfg1.win 1).blk t).view.emb j) = _
  refine congrArg (V c main_arg4 : S128x128.Idx → EReal) ?_
  funext a
  apply Fin.ext
  match a with
  | ⟨0, _⟩ => show win1_1.index t (0 : Fin 2) * 128 + 1 * (j 0).val = (j 0).val; omega
  | ⟨1, _⟩ => show win1_1.index t (1 : Fin 2) * 128 + 1 * (j 1).val = (j 1).val; omega

/-- What point `t` writes back is block `t` of the product of every rectified row of the operand with the weights. -/
theorem flushed1_eq (c : Dev nD) (t : Fin cfg1.N) :
    (dat1 (F := Ideal) V c).flushed 2 t
      = ((cfg1.win 2).blk t).view.read (Elt Ideal) (rowMap (fun row => mmRow (V c main_arg4) (reluRow row)) (V c main_v48)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S128x128) zero_offsets]
  rw [pay1_eq, weights1_eq]
  funext j
  exact rowMap_read (fun row => mmRow (V c main_arg4) (reluRow row)) (V c main_v48) (iblk1 V c 0 t) (2000 * t.val)
    (((cfg1.win 2).blk t).view.emb) (emb1_row t) (emb1_col t) (operand1_apply V c t) j

/-- An index of the result array is in point `t`'s block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v49).slice (win1_2.rect t)).set ↔ _
  rw [View.set_slice_whole, Rect.mem_set_unit]
  exact Iff.rfl

/-- Every index of the result array is in the block of the point its row divided by 2000 names. -/
theorem cover1 (i : S50000x128.Idx) :
    ∃ t : Fin cfg1.N, (cfg1.win 2).flush t = true ∧ i ∈ ((cfg1.win 2).blk t).view.set := by
  have hN : grid1.N = 25 := Gen.N_1
  have hi0 : (i 0).val < 50000 := (i 0).isLt
  have hi1 : (i 1).val < 128 := (i 1).isLt
  let t : Fin cfg1.N := ⟨(i 0).val / 2000, by show (i 0).val / 2000 < grid1.N; omega⟩
  have ht : t.val = (i 0).val / 2000 := rfl
  obtain ⟨-, -, -, -, e4, e5⟩ := index1 t
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- Region 1: the output array is every row of the first operand, rectified, times the second operand. -/
theorem region1_value (c : Dev nD) :
    (dat1 (F := Ideal) V c).arrAt 2 cfg1.N = rowMap (fun row => mmRow (V c main_arg4) (reluRow row)) (V c main_v48) :=
  (dat1 V c).arrAt_eq_of_cover 2 _ (fun t _ => flushed1_eq V c t) cover1

/-! ## Region 2 -/

/-- The printed index maps of region 2, decided over the 25 points: the row blocks of the operand and of the result
    move with the point. -/
theorem index2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Where point `t`'s result block sits in the result array: row 2000 t + the block's row, -/
theorem emb2_row (t : Fin cfg2.N) (j : S2000x128.Idx) :
    ((((cfg2.win 1).blk t).view.emb j) 0).val = 2000 * t.val + (j 0).val := by
  obtain ⟨-, -, e2, -⟩ := index2 t
  show win2_1.index t (0 : Fin 2) * 2000 + 1 * (j 0).val = _
  omega

/-- the same column. -/
theorem emb2_col (t : Fin cfg2.N) (j : S2000x128.Idx) :
    ((((cfg2.win 1).blk t).view.emb j) 1).val = (j 1).val := by
  obtain ⟨-, -, -, e3⟩ := index2 t
  show win2_1.index t (1 : Fin 2) * 128 + 1 * (j 1).val = _
  omega

/-- The operand's block at point `t` holds the operand where the result block sits. -/
theorem operand2_apply (c : Dev nD) (t : Fin cfg2.N) (j : S2000x128.Idx) :
    (iblk2 (F := Ideal) V c 0 t : Vec Ideal S2000x128 .f32) j = (V c main_v65 : S50000x128.Idx → EReal) (((cfg2.win 1).blk t).view.emb j) := by
  obtain ⟨e0, e1, e2, e3⟩ := index2 t
  show (V c main_v65 : S50000x128.Idx → EReal) (((cfg2.win 0).blk t).view.emb j) = _
  refine congrArg (V c main_v65 : S50000x128.Idx → EReal) ?_
  funext a
  apply Fin.ext
  match a with
  | ⟨0, _⟩ => show win2_0.index t (0 : Fin 2) * 2000 + 1 * (j 0).val = win2_1.index t (0 : Fin 2) * 2000 + 1 * (j 0).val; omega
  | ⟨1, _⟩ => show win2_0.index t (1 : Fin 2) * 128 + 1 * (j 1).val = win2_1.index t (1 : Fin 2) * 128 + 1 * (j 1).val; omega

/-- What point `t` writes back is block `t` of the logarithm of the softmax of every row of the operand. -/
theorem flushed2_eq (c : Dev nD) (t : Fin cfg2.N) :
    (dat2 (F := Ideal) V c).flushed 1 t
      = ((cfg2.win 1).blk t).view.read (Elt Ideal) (rowMap lsmRow (V c main_v65)) := by
  show (cfg2.win 1).cut (grid2.coords t) ((dat2 V c).after 1 t) = _
  rw [after2_1]
  unfold out2_1
  rw [View.canon_unit_zero zero_offsets]
  simp only [View.ld_unit_zero (S := S2000x128) zero_offsets]
  rw [pay2_eq]
  funext j
  exact rowMap_read lsmRow (V c main_v65) (iblk2 V c 0 t) (2000 * t.val)
    (((cfg2.win 1).blk t).view.emb) (emb2_row t) (emb2_col t) (operand2_apply V c t) j

/-- An index of the result array is in point `t`'s block iff each coordinate is in the block's range on its axis. -/
theorem mem_blk2 (t : Fin cfg2.N) (i : S50000x128.Idx) :
    i ∈ ((cfg2.win 1).blk t).view.set ↔ ∀ a : Fin 2, win2_1.index t a * S2000x128.size a ≤ (i a).val ∧ (i a).val < win2_1.index t a * S2000x128.size a + S2000x128.size a := by
  show i ∈ ((View.whole main_v66).slice (win2_1.rect t)).set ↔ _
  rw [View.set_slice_whole, Rect.mem_set_unit]
  exact Iff.rfl

/-- Every index of the result array is in the block of the point its row divided by 2000 names. -/
theorem cover2 (i : S50000x128.Idx) :
    ∃ t : Fin cfg2.N, (cfg2.win 1).flush t = true ∧ i ∈ ((cfg2.win 1).blk t).view.set := by
  have hN : grid2.N = 25 := Gen.N_2
  have hi0 : (i 0).val < 50000 := (i 0).isLt
  have hi1 : (i 1).val < 128 := (i 1).isLt
  let t : Fin cfg2.N := ⟨(i 0).val / 2000, by show (i 0).val / 2000 < grid2.N; omega⟩
  have ht : t.val = (i 0).val / 2000 := rfl
  obtain ⟨-, -, e2, e3⟩ := index2 t
  refine ⟨t, flush2_1 t, ?_⟩
  rw [mem_blk2]
  intro a
  match a with
  | ⟨0, _⟩ => show win2_1.index t (0 : Fin 2) * 2000 ≤ (i 0).val ∧ (i 0).val < win2_1.index t (0 : Fin 2) * 2000 + 2000; omega
  | ⟨1, _⟩ => show win2_1.index t (1 : Fin 2) * 128 ≤ (i 1).val ∧ (i 1).val < win2_1.index t (1 : Fin 2) * 128 + 128; omega

/-- Region 2: the output array is the logarithm of the softmax of every row of the operand. -/
theorem region2_value (c : Dev nD) :
    (dat2 (F := Ideal) V c).arrAt 1 cfg2.N = rowMap lsmRow (V c main_v65) :=
  (dat2 V c).arrAt_eq_of_cover 1 _ (fun t _ => flushed2_eq V c t) cover2

end Cert.Gcn

end
-- ==== Proof.AggK.lean ====
/-
  The edge aggregation both programs run on the host, as functions of the arrays it reads.

  From the edge list (2 × 800000 node numbers) both programs form the source and the target lists with one self loop
  per node appended (`srcK`, `dstK`: 850000 entries each), the degree of every node as a scatter-add of ones at the
  targets, its inverse square root where the degree is positive and zero elsewhere (`dinvK`), and the edge weight as
  the product of the two end points' values (`normK`). One aggregation layer (`aggK`) gathers the feature rows at the
  sources (a negative node number first wrapped by the number of nodes), scales each by its edge's weight, scatter-adds
  them at the targets into a zero matrix and adds the bias row to every row. The gather and the scatter are never
  opened: both programs apply the same ones to the same index lists.
-/
import proofs.«146059_j75814762709760_1_alg».proof.KernelIdeal
import proofs.«146059_j75814762709760_1_alg».proof.Proof.Gen.KernelIdeal

noncomputable section

namespace Cert.Gcn

open Idealize.ShloMosaic Cert.KernelIdeal Cert.KernelIdeal.Gen

variable {F : FTy → Type} [FloatOps F]

/-- The sources: row 0 of the edge list, then the node numbers 0 … 49999. -/
def srcK (ei : (⟨S2x800000, .i32⟩ : BufTy).Contents (Elt F)) : (⟨S850000, .i32⟩ : BufTy).Contents (Elt F) :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The targets: row 1 of the edge list, then the node numbers 0 … 49999. -/
def dstK (ei : (⟨S2x800000, .i32⟩ : BufTy).Contents (Elt F)) : (⟨S850000, .i32⟩ : BufTy).Contents (Elt F) :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- A list of node numbers with the negative ones wrapped by the number of nodes, as a column of start indices. -/
def wrapK (ix : (⟨S850000, .i32⟩ : BufTy).Contents (Elt F)) : (⟨S850000x1, .i32⟩ : BufTy).Contents (Elt F) :=
  broadcastInDim S850000x1 ![0] bcast_S850000_S850000x1_0
    (select (cmpi .slt ix (broadcastInDim S850000 ![] bcast_S_S850000 (constantI S_ 32 0#32)))
      (addi ix (broadcastInDim S850000 ![] bcast_S_S850000 (constantI S_ 32 50000#32))) ix)

/-- The degree of every node: ones scatter-added at the targets. -/
def degK (dst : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

/-- Whether a node's degree is positive. -/
def posK (dst : (⟨S850000, .i32⟩ : BufTy).Contents (Elt F)) : (⟨S50000, .i1⟩ : BufTy).Contents (Elt F) :=
  cmpf (F := F) .ogt (degK dst) (broadcastInDim S50000 ![] bcast_S_S50000 (constant S_ .f32 0x00000000#32))

/-- The inverse square root of the degree, the degree first raised to the small positive literal. -/
def rsqK (dst : (⟨S850000, .i32⟩ : BufTy).Contents (Elt F)) : (⟨S50000, .f32⟩ : BufTy).Contents (Elt F) :=
  Host.rsqrt (maximumf (degK dst) (broadcastInDim S50000 ![] bcast_S_S50000 (constant S_ .f32 0x2B8CBCCC#32)))

/-- The select that keeps `a` where the condition holds and writes the scalar `z` elsewhere. -/
def whereK (p : (⟨S50000, .i1⟩ : BufTy).Contents (Elt F)) (a : (⟨S50000, .f32⟩ : BufTy).Contents (Elt F))
    (z : (⟨S_, .f32⟩ : BufTy).Contents (Elt F)) : (⟨S50000, .f32⟩ : BufTy).Contents (Elt F) :=
  select p a (broadcastInDim S50000 ![] bcast_S_S50000 (id z))

/-- The edge weights from the per-node factor `d`: the factor at the source times the factor at the target. -/
def normK (d : (⟨S50000, .f32⟩ : BufTy).Contents (Elt F)) (src dst : (⟨S850000, .i32⟩ : BufTy).Contents (Elt F)) :
    (⟨S850000, .f32⟩ : BufTy).Contents (Elt F) :=
  mulf (Host.gather gather_S50000_S850000x1_S850000_n_0_n_n_0_1_1 d (wrapK src))
    (Host.gather gather_S50000_S850000x1_S850000_n_0_n_n_0_1_1 d (wrapK dst))

/-- One aggregation layer: gather the rows of `h` at the sources, scale by the edge weights, scatter-add at the targets
    into zeros, add the bias to every row. -/
def aggK (h : (⟨S50000x128, .f32⟩ : BufTy).Contents (Elt F)) (src dst : (⟨S850000, .i32⟩ : BufTy).Contents (Elt F))
    (nrm : (⟨S850000, .f32⟩ : BufTy).Contents (Elt F)) (b : (⟨S128, .f32⟩ : BufTy).Contents (Elt F)) :
    (⟨S50000x128, .f32⟩ : BufTy).Contents (Elt F) :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 dst)
      (mulf (Host.gather gather_S50000x128_S850000x1_S850000x128_1_0_n_n_0_1_1128 h (wrapK src))
        (broadcastInDim S850000x128 ![0, 1] bcast_S850000x1_S850000x128_0_1 (broadcastInDim S850000x1 ![0] bcast_S850000_S850000x1_0 nrm))))
    (broadcastInDim S50000x128 ![0, 1] bcast_S1x128_S50000x128_0_1 (broadcastInDim S1x128 ![1] bcast_S128_S1x128_1 b))

/-- The edge weights of the graph: the per-node factor is the inverse square root of the degree where it is positive, zero elsewhere. -/
def weightsK (ei : (⟨S2x800000, .i32⟩ : BufTy).Contents (Elt F)) : (⟨S850000, .f32⟩ : BufTy).Contents (Elt F) :=
  normK (whereK (posK (dstK ei)) (rsqK (dstK ei)) (constant S_ .f32 0x00000000#32)) (srcK ei) (dstK ei)

end Cert.Gcn

end
-- ==== Proof.KHost.lean ====
/-
  The host stretches of the kernel program, read back as functions.

  Between its three kernel regions the program runs five stretches of host operations. Each lemma here says what one
  buffer holds after one stretch, as a function of what the buffers held before it (the contents `X` are arbitrary):
  the first three stretches compute the source and target lists and the edge weights from the edge list; the fourth is
  one aggregation layer of the first region's output with the first bias; the fifth is the same layer of the second
  region's output with the second bias. A buffer a stretch does not write keeps its contents.
-/
import proofs.«146059_j75814762709760_1_alg».proof.Proof.Gen.KernelIdeal.Launch
import proofs.«146059_j75814762709760_1_alg».proof.Proof.AggK
import Idealize.ShloMosaic.Lib.StableHlo.Run

set_option maxRecDepth 16384

noncomputable section

namespace Cert.Gcn

open Idealize.ShloMosaic Idealize.ShloMosaic.TcCoe Idealize.SL.Sem Idealize.ShloMosaic.StableHlo Cert.KernelIdeal Cert.KernelIdeal.Gen

variable {F : FTy → Type} [FloatOps F] (X : Valuation τ sig (Elt F))

/-! ## The first stretch: the index lists, the degree's sign and its inverse square root -/

theorem ops0_v3 : after (hostOps0 (F := F)) X (Proc.devRef .tc main_v3) = srcK (X (Proc.devRef .tc main_arg1)) := by
  unfold srcK; after_results; rfl

theorem ops0_v6 : after (hostOps0 (F := F)) X (Proc.devRef .tc main_v6) = dstK (X (Proc.devRef .tc main_arg1)) := by
  unfold dstK; after_results; rfl

theorem ops0_v12 : after (hostOps0 (F := F)) X (Proc.devRef .tc main_v12) = posK (dstK (X (Proc.devRef .tc main_arg1))) := by
  unfold posK degK dstK; after_results; rfl

theorem ops0_v15 : after (hostOps0 (F := F)) X (Proc.devRef .tc main_v15) = rsqK (dstK (X (Proc.devRef .tc main_arg1))) := by
  unfold rsqK degK dstK; after_results; rfl

theorem ops0_cst_3 : after (hostOps0 (F := F)) X (Proc.devRef .tc main_cst_3) = constant S_ .f32 0x00000000#32 := by
  after_results <;> rfl

theorem ops0_arg0 : after (hostOps0 (F := F)) X (Proc.devRef .tc main_arg0) = X (Proc.devRef .tc main_arg0) := by
  after_results <;> rfl
theorem ops0_arg1 : after (hostOps0 (F := F)) X (Proc.devRef .tc main_arg1) = X (Proc.devRef .tc main_arg1) := by
  after_results <;> rfl
theorem ops0_arg2 : after (hostOps0 (F := F)) X (Proc.devRef .tc main_arg2) = X (Proc.devRef .tc main_arg2) := by
  after_results <;> rfl
theorem ops0_arg3 : after (hostOps0 (F := F)) X (Proc.devRef .tc main_arg3) = X (Proc.devRef .tc main_arg3) := by
  after_results <;> rfl
theorem ops0_arg4 : after (hostOps0 (F := F)) X (Proc.devRef .tc main_arg4) = X (Proc.devRef .tc main_arg4) := by
  after_results <;> rfl
theorem ops0_arg5 : after (hostOps0 (F := F)) X (Proc.devRef .tc main_arg5) = X (Proc.devRef .tc main_arg5) := by
  after_results <;> rfl

/-! ## The second stretch: zero where the degree is not positive -/

theorem ops01_v16 : after (hostOps0_1 (F := F)) X (Proc.devRef .tc main_v16)
    = whereK (X (Proc.devRef .tc main_v12)) (X (Proc.devRef .tc main_v15)) (X (Proc.devRef .tc main_cst_3)) := by
  unfold whereK; after_results <;> rfl

theorem ops01_v3 : after (hostOps0_1 (F := F)) X (Proc.devRef .tc main_v3) = X (Proc.devRef .tc main_v3) := by
  after_results <;> rfl
theorem ops01_v6 : after (hostOps0_1 (F := F)) X (Proc.devRef .tc main_v6) = X (Proc.devRef .tc main_v6) := by
  after_results <;> rfl
theorem ops01_arg0 : after (hostOps0_1 (F := F)) X (Proc.devRef .tc main_arg0) = X (Proc.devRef .tc main_arg0) := by
  after_results <;> rfl
theorem ops01_arg1 : after (hostOps0_1 (F := F)) X (Proc.devRef .tc main_arg1) = X (Proc.devRef .tc main_arg1) := by
  after_results <;> rfl
theorem ops01_arg2 : after (hostOps0_1 (F := F)) X (Proc.devRef .tc main_arg2) = X (Proc.devRef .tc main_arg2) := by
  after_results <;> rfl
theorem ops01_arg3 : after (hostOps0_1 (F := F)) X (Proc.devRef .tc main_arg3) = X (Proc.devRef .tc main_arg3) := by
  after_results <;> rfl
theorem ops01_arg4 : after (hostOps0_1 (F := F)) X (Proc.devRef .tc main_arg4) = X (Proc.devRef .tc main_arg4) := by
  after_results <;> rfl
theorem ops01_arg5 : after (hostOps0_1 (F := F)) X (Proc.devRef .tc main_arg5) = X (Proc.devRef .tc main_arg5) := by
  after_results <;> rfl

/-! ## The third stretch: the edge weights -/

theorem ops02_v31 : after (hostOps0_2 (F := F)) X (Proc.devRef .tc main_v31)
    = normK (X (Proc.devRef .tc main_v16)) (X (Proc.devRef .tc main_v3)) (X (Proc.devRef .tc main_v6)) := by
  unfold normK wrapK; after_results_simp <;> rfl

theorem ops02_v3 : after (hostOps0_2 (F := F)) X (Proc.devRef .tc main_v3) = X (Proc.devRef .tc main_v3) := by
  after_results <;> rfl
theorem ops02_v6 : after (hostOps0_2 (F := F)) X (Proc.devRef .tc main_v6) = X (Proc.devRef .tc main_v6) := by
  after_results <;> rfl
theorem ops02_arg0 : after (hostOps0_2 (F := F)) X (Proc.devRef .tc main_arg0) = X (Proc.devRef .tc main_arg0) := by
  after_results <;> rfl
theorem ops02_arg1 : after (hostOps0_2 (F := F)) X (Proc.devRef .tc main_arg1) = X (Proc.devRef .tc main_arg1) := by
  after_results <;> rfl
theorem ops02_arg2 : after (hostOps0_2 (F := F)) X (Proc.devRef .tc main_arg2) = X (Proc.devRef .tc main_arg2) := by
  after_results <;> rfl
theorem ops02_arg3 : after (hostOps0_2 (F := F)) X (Proc.devRef .tc main_arg3) = X (Proc.devRef .tc main_arg3) := by
  after_results <;> rfl
theorem ops02_arg4 : after (hostOps0_2 (F := F)) X (Proc.devRef .tc main_arg4) = X (Proc.devRef .tc main_arg4) := by
  after_results <;> rfl
theorem ops02_arg5 : after (hostOps0_2 (F := F)) X (Proc.devRef .tc main_arg5) = X (Proc.devRef .tc main_arg5) := by
  after_results <;> rfl

/-! ## The fourth stretch: the first aggregation layer -/

theorem ops1_v48 : after (hostOps1 (F := F)) X (Proc.devRef .tc main_v48)
    = aggK (X (Proc.devRef .tc main_v32)) (X (Proc.devRef .tc main_v3)) (X (Proc.devRef .tc main_v6)) (X (Proc.devRef .tc main_v31)) (X (Proc.devRef .tc main_arg3)) := by
  unfold aggK wrapK; after_results_simp <;> rfl

theorem ops1_v3 : after (hostOps1 (F := F)) X (Proc.devRef .tc main_v3) = X (Proc.devRef .tc main_v3) := by
  after_results <;> rfl
theorem ops1_v6 : after (hostOps1 (F := F)) X (Proc.devRef .tc main_v6) = X (Proc.devRef .tc main_v6) := by
  after_results <;> rfl
theorem ops1_v31 : after (hostOps1 (F := F)) X (Proc.devRef .tc main_v31) = X (Proc.devRef .tc main_v31) := by
  after_results <;> rfl
theorem ops1_arg4 : after (hostOps1 (F := F)) X (Proc.devRef .tc main_arg4) = X (Proc.devRef .tc main_arg4) := by
  after_results <;> rfl
theorem ops1_arg5 : after (hostOps1 (F := F)) X (Proc.devRef .tc main_arg5) = X (Proc.devRef .tc main_arg5) := by
  after_results <;> rfl

/-! ## The fifth stretch: the second aggregation layer -/

theorem ops2_v65 : after (hostOps2 (F := F)) X (Proc.devRef .tc main_v65)
    = aggK (X (Proc.devRef .tc main_v49)) (X (Proc.devRef .tc main_v3)) (X (Proc.devRef .tc main_v6)) (X (Proc.devRef .tc main_v31)) (X (Proc.devRef .tc main_arg5)) := by
  unfold aggK wrapK; after_results_simp <;> rfl

end Cert.Gcn

end
-- ==== Proof.GcnOut.lean ====
/-
  The whole network as one function of its six arguments, at the exact instance.

  With A the edge aggregation (`aggK` over the source and target lists and the edge weights of the graph), the result is
    log-softmax per row of  A (relu (A (x · W1) + b1) · W2) + b2,
  the biases being added inside `aggK`. Both programs are shown to end at this array.
-/
import proofs.«146059_j75814762709760_1_alg».proof.Proof.Spec
import proofs.«146059_j75814762709760_1_alg».proof.Proof.AggK

noncomputable section

namespace Cert.Gcn

open Idealize.ShloMosaic Cert.KernelIdeal

/-- The first layer before the rectifier: the aggregation of `x · W1`, plus `b1`. -/
def layer1 (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) :
    (⟨S50000x128, .f32⟩ : BufTy).Contents (Elt Ideal) :=
  aggK (rowMap (mmRow x2) x0) (srcK x1) (dstK x1) (weightsK x1) x3

/-- The second layer: the aggregation of `relu (layer 1) · W2`, plus `b2`. -/
def layer2 (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    (⟨S50000x128, .f32⟩ : BufTy).Contents (Elt Ideal) :=
  aggK (rowMap (fun row => mmRow x4 (reluRow row)) (layer1 x0 x1 x2 x3)) (srcK x1) (dstK x1) (weightsK x1) x5

/-- The network's result: the logarithm of the softmax of every row of the second layer. -/
def gcnOut (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    (⟨S50000x128, .f32⟩ : BufTy).Contents (Elt Ideal) :=
  rowMap lsmRow (layer2 x0 x1 x2 x3 x4 x5)

end Cert.Gcn

end
-- ==== Proof.KValue.lean ====
/-
  The kernel program's result array, read through its whole run.

  The run's buffer contents at the eight segment boundaries are a fold: a host stretch applies its operations, a kernel
  region replaces its output array by what its write-backs leave. Walking the fold from the end: the result is the third
  region's output, the log-softmax of every row of the fifth stretch's aggregation; that aggregates the second region's
  output, the rectified product with `W2` of the fourth stretch's aggregation; and that aggregates the first region's
  output, the product of `x` with `W1`. The index lists and the edge weights are computed once, before the first region,
  and no later segment writes them.
-/
import proofs.«146059_j75814762709760_1_alg».proof.Proof.Gen.KernelIdeal.Frame
import proofs.«146059_j75814762709760_1_alg».proof.Proof.KRegion
import proofs.«146059_j75814762709760_1_alg».proof.Proof.KHost
import proofs.«146059_j75814762709760_1_alg».proof.Proof.GcnOut

set_option maxRecDepth 16384

noncomputable section

namespace Cert.Gcn

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-! ## Before the first region: the arguments, the index lists, the edge weights -/

theorem W3_arg0 : W3 m ρ c (Proc.devRef .tc main_arg0) = m ((c : Thread nD τ).loc main_arg0) :=
  calc W3 m ρ c (Proc.devRef .tc main_arg0)
    _ = W2 m ρ c (Proc.devRef .tc main_arg0) := ops02_arg0 (W2 m ρ c)
    _ = W1 m ρ c (Proc.devRef .tc main_arg0) := ops01_arg0 (W1 m ρ c)
    _ = W0 m ρ c (Proc.devRef .tc main_arg0) := ops0_arg0 (W0 m ρ c)
    _ = m ((c : Thread nD τ).loc main_arg0) := rfl

theorem W3_arg1 : W3 m ρ c (Proc.devRef .tc main_arg1) = m ((c : Thread nD τ).loc main_arg1) :=
  calc W3 m ρ c (Proc.devRef .tc main_arg1)
    _ = W2 m ρ c (Proc.devRef .tc main_arg1) := ops02_arg1 (W2 m ρ c)
    _ = W1 m ρ c (Proc.devRef .tc main_arg1) := ops01_arg1 (W1 m ρ c)
    _ = W0 m ρ c (Proc.devRef .tc main_arg1) := ops0_arg1 (W0 m ρ c)
    _ = m ((c : Thread nD τ).loc main_arg1) := rfl

theorem W3_arg2 : W3 m ρ c (Proc.devRef .tc main_arg2) = m ((c : Thread nD τ).loc main_arg2) :=
  calc W3 m ρ c (Proc.devRef .tc main_arg2)
    _ = W2 m ρ c (Proc.devRef .tc main_arg2) := ops02_arg2 (W2 m ρ c)
    _ = W1 m ρ c (Proc.devRef .tc main_arg2) := ops01_arg2 (W1 m ρ c)
    _ = W0 m ρ c (Proc.devRef .tc main_arg2) := ops0_arg2 (W0 m ρ c)
    _ = m ((c : Thread nD τ).loc main_arg2) := rfl

theorem W3_arg3 : W3 m ρ c (Proc.devRef .tc main_arg3) = m ((c : Thread nD τ).loc main_arg3) :=
  calc W3 m ρ c (Proc.devRef .tc main_arg3)
    _ = W2 m ρ c (Proc.devRef .tc main_arg3) := ops02_arg3 (W2 m ρ c)
    _ = W1 m ρ c (Proc.devRef .tc main_arg3) := ops01_arg3 (W1 m ρ c)
    _ = W0 m ρ c (Proc.devRef .tc main_arg3) := ops0_arg3 (W0 m ρ c)
    _ = m ((c : Thread nD τ).loc main_arg3) := rfl

theorem W3_arg4 : W3 m ρ c (Proc.devRef .tc main_arg4) = m ((c : Thread nD τ).loc main_arg4) :=
  calc W3 m ρ c (Proc.devRef .tc main_arg4)
    _ = W2 m ρ c (Proc.devRef .tc main_arg4) := ops02_arg4 (W2 m ρ c)
    _ = W1 m ρ c (Proc.devRef .tc main_arg4) := ops01_arg4 (W1 m ρ c)
    _ = W0 m ρ c (Proc.devRef .tc main_arg4) := ops0_arg4 (W0 m ρ c)
    _ = m ((c : Thread nD τ).loc main_arg4) := rfl

theorem W3_arg5 : W3 m ρ c (Proc.devRef .tc main_arg5) = m ((c : Thread nD τ).loc main_arg5) :=
  calc W3 m ρ c (Proc.devRef .tc main_arg5)
    _ = W2 m ρ c (Proc.devRef .tc main_arg5) := ops02_arg5 (W2 m ρ c)
    _ = W1 m ρ c (Proc.devRef .tc main_arg5) := ops01_arg5 (W1 m ρ c)
    _ = W0 m ρ c (Proc.devRef .tc main_arg5) := ops0_arg5 (W0 m ρ c)
    _ = m ((c : Thread nD τ).loc main_arg5) := rfl

theorem W3_v3 : W3 m ρ c (Proc.devRef .tc main_v3) = srcK (m ((c : Thread nD τ).loc main_arg1)) :=
  calc W3 m ρ c (Proc.devRef .tc main_v3)
    _ = W2 m ρ c (Proc.devRef .tc main_v3) := ops02_v3 (W2 m ρ c)
    _ = W1 m ρ c (Proc.devRef .tc main_v3) := ops01_v3 (W1 m ρ c)
    _ = srcK (W0 m ρ c (Proc.devRef .tc main_arg1)) := ops0_v3 (W0 m ρ c)
    _ = srcK (m ((c : Thread nD τ).loc main_arg1)) := rfl

theorem W3_v6 : W3 m ρ c (Proc.devRef .tc main_v6) = dstK (m ((c : Thread nD τ).loc main_arg1)) :=
  calc W3 m ρ c (Proc.devRef .tc main_v6)
    _ = W2 m ρ c (Proc.devRef .tc main_v6) := ops02_v6 (W2 m ρ c)
    _ = W1 m ρ c (Proc.devRef .tc main_v6) := ops01_v6 (W1 m ρ c)
    _ = dstK (W0 m ρ c (Proc.devRef .tc main_arg1)) := ops0_v6 (W0 m ρ c)
    _ = dstK (m ((c : Thread nD τ).loc main_arg1)) := rfl

theorem W2_v16 : W2 m ρ c (Proc.devRef .tc main_v16)
    = whereK (posK (dstK (m ((c : Thread nD τ).loc main_arg1)))) (rsqK (dstK (m ((c : Thread nD τ).loc main_arg1)))) (constant (F := Ideal) S_ .f32 0x00000000#32) := by
  have h12 : W1 m ρ c (Proc.devRef .tc main_v12) = posK (dstK (m ((c : Thread nD τ).loc main_arg1))) := ops0_v12 (W0 m ρ c)
  have h15 : W1 m ρ c (Proc.devRef .tc main_v15) = rsqK (dstK (m ((c : Thread nD τ).loc main_arg1))) := ops0_v15 (W0 m ρ c)
  have hc3 : W1 m ρ c (Proc.devRef .tc main_cst_3) = constant (F := Ideal) S_ .f32 0x00000000#32 := ops0_cst_3 (W0 m ρ c)
  refine (ops01_v16 (W1 m ρ c)).trans ?_
  rw [h12, h15, hc3]

theorem W3_v31 : W3 m ρ c (Proc.devRef .tc main_v31) = weightsK (m ((c : Thread nD τ).loc main_arg1)) := by
  have h16 := W2_v16 m ρ c
  have h3 : W2 m ρ c (Proc.devRef .tc main_v3) = srcK (m ((c : Thread nD τ).loc main_arg1)) := (ops01_v3 (W1 m ρ c)).trans (ops0_v3 (W0 m ρ c))
  have h6 : W2 m ρ c (Proc.devRef .tc main_v6) = dstK (m ((c : Thread nD τ).loc main_arg1)) := (ops01_v6 (W1 m ρ c)).trans (ops0_v6 (W0 m ρ c))
  refine (ops02_v31 (W2 m ρ c)).trans ?_
  rw [h16, h3, h6]
  rfl

/-! ## The first region and the first aggregation -/

theorem W4_v32 : W4 m ρ c (Proc.devRef .tc main_v32) = rowMap (mmRow (m ((c : Thread nD τ).loc main_arg2))) (m ((c : Thread nD τ).loc main_arg0)) := by
  have h0 : V3 m ρ c main_arg0 = (m ((c : Thread nD τ).loc main_arg0)) := W3_arg0 m ρ c
  have h2 : V3 m ρ c main_arg2 = (m ((c : Thread nD τ).loc main_arg2)) := W3_arg2 m ρ c
  refine (W4_arr m ρ c 2).trans ?_
  rw [region0_value (V3 m ρ) c, h0, h2]

theorem W5_v48 : W5 m ρ c (Proc.devRef .tc main_v48) = layer1 (m ((c : Thread nD τ).loc main_arg0)) (m ((c : Thread nD τ).loc main_arg1)) (m ((c : Thread nD τ).loc main_arg2)) (m ((c : Thread nD τ).loc main_arg3)) := by
  have h32 := W4_v32 m ρ c
  have h3 : W4 m ρ c (Proc.devRef .tc main_v3) = srcK (m ((c : Thread nD τ).loc main_arg1)) := (W4_of_ne m ρ c main_v3 (by decide)).trans (W3_v3 m ρ c)
  have h6 : W4 m ρ c (Proc.devRef .tc main_v6) = dstK (m ((c : Thread nD τ).loc main_arg1)) := (W4_of_ne m ρ c main_v6 (by decide)).trans (W3_v6 m ρ c)
  have h31 : W4 m ρ c (Proc.devRef .tc main_v31) = weightsK (m ((c : Thread nD τ).loc main_arg1)) := (W4_of_ne m ρ c main_v31 (by decide)).trans (W3_v31 m ρ c)
  have hb : W4 m ρ c (Proc.devRef .tc main_arg3) = (m ((c : Thread nD τ).loc main_arg3)) := (W4_of_ne m ρ c main_arg3 (by decide)).trans (W3_arg3 m ρ c)
  refine (ops1_v48 (W4 m ρ c)).trans ?_
  rw [h32, h3, h6, h31, hb]
  rfl

/-! ## The second region and the second aggregation -/

theorem W5_pass (b : Ref sig .tc) (h : after (hostOps1 (F := Ideal)) (W4 m ρ c) (Proc.devRef .tc b) = W4 m ρ c (Proc.devRef .tc b))
    (hb : ∀ w, Pipeline.arrRef spec0 w ≠ b) : W5 m ρ c (Proc.devRef .tc b) = W3 m ρ c (Proc.devRef .tc b) :=
  h.trans (W4_of_ne m ρ c b hb)

theorem W6_v49 : W6 m ρ c (Proc.devRef .tc main_v49)
    = rowMap (fun row => mmRow (m ((c : Thread nD τ).loc main_arg4)) (reluRow row)) (layer1 (m ((c : Thread nD τ).loc main_arg0)) (m ((c : Thread nD τ).loc main_arg1)) (m ((c : Thread nD τ).loc main_arg2)) (m ((c : Thread nD τ).loc main_arg3))) := by
  have h48 : V5 m ρ c main_v48 = layer1 (m ((c : Thread nD τ).loc main_arg0)) (m ((c : Thread nD τ).loc main_arg1)) (m ((c : Thread nD τ).loc main_arg2)) (m ((c : Thread nD τ).loc main_arg3)) := W5_v48 m ρ c
  have h4 : V5 m ρ c main_arg4 = (m ((c : Thread nD τ).loc main_arg4)) := (W5_pass m ρ c main_arg4 (ops1_arg4 (W4 m ρ c)) (by decide)).trans (W3_arg4 m ρ c)
  refine (W6_arr m ρ c 2).trans ?_
  rw [region1_value (V5 m ρ) c, h48, h4]

theorem W7_v65 : W7 m ρ c (Proc.devRef .tc main_v65) = layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h49 := W6_v49 m ρ c
  have h3 : W6 m ρ c (Proc.devRef .tc main_v3) = srcK (m ((c : Thread nD τ).loc main_arg1)) :=
    (W6_of_ne m ρ c main_v3 (by decide)).trans ((W5_pass m ρ c main_v3 (ops1_v3 (W4 m ρ c)) (by decide)).trans (W3_v3 m ρ c))
  have h6 : W6 m ρ c (Proc.devRef .tc main_v6) = dstK (m ((c : Thread nD τ).loc main_arg1)) :=
    (W6_of_ne m ρ c main_v6 (by decide)).trans ((W5_pass m ρ c main_v6 (ops1_v6 (W4 m ρ c)) (by decide)).trans (W3_v6 m ρ c))
  have h31 : W6 m ρ c (Proc.devRef .tc main_v31) = weightsK (m ((c : Thread nD τ).loc main_arg1)) :=
    (W6_of_ne m ρ c main_v31 (by decide)).trans ((W5_pass m ρ c main_v31 (ops1_v31 (W4 m ρ c)) (by decide)).trans (W3_v31 m ρ c))
  have hb : W6 m ρ c (Proc.devRef .tc main_arg5) = (m ((c : Thread nD τ).loc main_arg5)) :=
    (W6_of_ne m ρ c main_arg5 (by decide)).trans ((W5_pass m ρ c main_arg5 (ops1_arg5 (W4 m ρ c)) (by decide)).trans (W3_arg5 m ρ c))
  refine (ops2_v65 (W6 m ρ c)).trans ?_
  rw [h49, h3, h6, h31, hb]
  rfl

/-! ## The third region: the result -/

/-- The kernel program's result array is the network's function of the six arguments. -/
theorem kernel_value : W8 m ρ c (Proc.devRef .tc main_v66) = gcnOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h65 : V7 m ρ c main_v65 = layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := W7_v65 m ρ c
  refine (W8_arr m ρ c 1).trans ?_
  rw [region2_value (V7 m ρ) c, h65]
  rfl

end Cert.Gcn

end
-- ==== Proof.RDefs.lean ====
/-
  The reference's three dense stages as functions of their operands, for any float values: the product with a
  128 × 128 weight matrix, the rectifier as a maximum with the zero matrix, and the log-softmax along each row
  (a row maximum from minus infinity, a second maximum with minus infinity, the difference, the sum of its exponentials
  from zero, the logarithm, the second difference), operation by operation as the reference's program has them.
-/
import proofs.«146059_j75814762709760_1_alg».proof.ReferenceIdeal
import proofs.«146059_j75814762709760_1_alg».proof.Proof.Gen.ReferenceIdeal

noncomputable section

namespace Cert.Gcn

open Idealize.ShloMosaic Cert.ReferenceIdeal Cert.ReferenceIdeal.Gen

variable {F : FTy → Type} [FloatOps F]

/-- The reference's rectifier: the maximum with the zero matrix. -/
def reluR (y : (⟨S50000x128, .f32⟩ : BufTy).Contents (Elt F)) : (⟨S50000x128, .f32⟩ : BufTy).Contents (Elt F) :=
  maximumf y (broadcastInDim S50000x128 ![] bcast_S_S50000x128 (constant S_ .f32 0x00000000#32))

/-- The row maxima as the reference's program takes them: a reduction from minus infinity, then a maximum with minus infinity. -/
def lsmMaxR (y : (⟨S50000x128, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf y (constant S_ .f32 0xFF800000#32) reducesTo_S50000x128_S50000_d1 h_S_)

/-- The row minus its maximum, on the whole matrix. -/
def lsmShiftR (y : (⟨S50000x128, .f32⟩ : BufTy).Contents (Elt F)) : (⟨S50000x128, .f32⟩ : BufTy).Contents (Elt F) :=
  subf y (broadcastInDim S50000x128 ![0, 1] bcast_S50000x1_S50000x128_0_1 (broadcastInDim S50000x1 ![0] bcast_S50000_S50000x1_0 (lsmMaxR y)))

/-- The shifted rows minus the logarithm of the sum of their exponentials. -/
def lsmR (y : (⟨S50000x128, .f32⟩ : BufTy).Contents (Elt F)) : (⟨S50000x128, .f32⟩ : BufTy).Contents (Elt F) :=
  subf (lsmShiftR y) (broadcastInDim S50000x128 ![0, 1] bcast_S50000x1_S50000x128_0_1
    (Host.log (broadcastInDim S50000x1 ![0] bcast_S50000_S50000x1_0
      (Host.reduceAdd (Host.exp (lsmShiftR y)) (constant S_ .f32 0x00000000#32) reducesTo_S50000x128_S50000_d1 h_S_))))

/-- The reference's product with a weight matrix. -/
def dotR (l : (⟨S50000x128, .f32⟩ : BufTy).Contents (Elt F)) (r : (⟨S128x128, .f32⟩ : BufTy).Contents (Elt F)) :
    (⟨S50000x128, .f32⟩ : BufTy).Contents (Elt F) :=
  Host.dotGeneral dot_S50000x128_S128x128_S50000x128_1_0_0_1_n_n none l r

end Cert.Gcn

end
-- ==== Proof.RHost.lean ====
/-
  The reference program's run, read back stretch by stretch.

  The reference's @main is one straight line of 137 host operations. It is cut here into nine stretches; each lemma says
  what one buffer holds after one stretch as a function of what the buffers held before it (arbitrary contents `X`).
  The stretches are the same host operations the kernel program runs between its regions — the index lists, the degree
  and the edge weights (computed twice by the reference, once per layer, with the same result), the two aggregation
  layers — around the reference's own dense stages: the two products with the weight matrices, the rectifier, and the
  log-softmax. Composed, they give the result buffer as one function of the six arguments.
-/
import proofs.«146059_j75814762709760_1_alg».proof.Proof.RRun
import proofs.«146059_j75814762709760_1_alg».proof.Proof.AggK
import proofs.«146059_j75814762709760_1_alg».proof.Proof.RDefs
import Idealize.ShloMosaic.Lib.StableHlo.Run
import Idealize.ShloMosaic.Lib.Pipeline.Frame

set_option maxRecDepth 16384

noncomputable section

namespace Cert.Gcn

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-! ## The nine stretches -/

/-- The index lists, the first product, the degree's sign and its inverse square root. -/
abbrev rOpsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_arg0 main_arg2 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32) ]

/-- Zero where the degree is not positive. -/
abbrev rOpsB : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v16) (TRef.of (T := ⟨S50000, .f32⟩) main_call0_v1) (TRef.of (T := ⟨S50000, .f32⟩) main_v17) select ]

/-- The edge weights. -/
abbrev rOpsC : List (HloOp τ sig (Elt F)) :=
  [ nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v3 main_v18 main_v19 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v20 (broadcastInDim S850000 ![] bcast_S_S850000 : (⟨S_, .i32⟩ : BufTy).Contents (Elt F) → (⟨S850000, .i32⟩ : BufTy).Contents (Elt F)),
    binary main_v3 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v3 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v27 (broadcastInDim S850000 ![] bcast_S_S850000 : (⟨S_, .i32⟩ : BufTy).Contents (Elt F) → (⟨S850000, .i32⟩ : BufTy).Contents (Elt F)),
    binary main_v6 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v6 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)) ]

/-- The first aggregation layer. -/
abbrev rOpsD : List (HloOp τ sig (Elt F)) :=
  [ nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v7 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v32 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)) ]

/-- The rectifier and the second product. -/
abbrev rOpsE : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v48) (TRef.of (T := ⟨S50000x128, .f32⟩) main_call1_v0) (TRef.of (T := ⟨S50000x128, .f32⟩) main_v49) maximumf,
    binary main_v49 main_arg4 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The degree again, its sign, its inverse square root, and zero where it is not positive. -/
abbrev rOpsG : List (HloOp τ sig (Elt F)) :=
  [ nullary main_cst_10 (constant S_ .f32 0x3F800000#32),
    unary main_cst_10 main_v51 (broadcastInDim S850000 ![] bcast_S_S850000 : (⟨S_, .f32⟩ : BufTy).Contents (Elt F) → (⟨S850000, .f32⟩ : BufTy).Contents (Elt F)),
    nullary main_cst_11 (constant S_ .f32 0x00000000#32),
    unary main_cst_11 main_v52 (broadcastInDim S50000 ![] bcast_S_S50000 : (⟨S_, .f32⟩ : BufTy).Contents (Elt F) → (⟨S50000, .f32⟩ : BufTy).Contents (Elt F)),
    unary main_v6 main_v53 (broadcastInDim S850000x1 ![0] bcast_S850000_S850000x1_0 : (⟨S850000, .i32⟩ : BufTy).Contents (Elt F) → (⟨S850000x1, .i32⟩ : BufTy).Contents (Elt F)),
    ternary main_v52 main_v53 main_v51 main_v54 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_12 (constant S_ .f32 0x00000000#32),
    unary main_cst_12 main_v55 (broadcastInDim S50000 ![] bcast_S_S50000 : (⟨S_, .f32⟩ : BufTy).Contents (Elt F) → (⟨S50000, .f32⟩ : BufTy).Contents (Elt F)),
    binary main_v54 main_v55 main_v56 (cmpf .ogt : (⟨S50000, .f32⟩ : BufTy).Contents (Elt F) → (⟨S50000, .f32⟩ : BufTy).Contents (Elt F) → (⟨S50000, .i1⟩ : BufTy).Contents (Elt F)),
    nullary main_cst_13 (constant S_ .f32 0x2B8CBCCC#32),
    unary main_cst_13 main_v57 (broadcastInDim S50000 ![] bcast_S_S50000 : (⟨S_, .f32⟩ : BufTy).Contents (Elt F) → (⟨S50000, .f32⟩ : BufTy).Contents (Elt F)),
    binary main_v54 main_v57 main_v58 (maximumf : (⟨S50000, .f32⟩ : BufTy).Contents (Elt F) → (⟨S50000, .f32⟩ : BufTy).Contents (Elt F) → (⟨S50000, .f32⟩ : BufTy).Contents (Elt F)),
    unary main_v58 main_v59 (Host.rsqrt : (⟨S50000, .f32⟩ : BufTy).Contents (Elt F) → (⟨S50000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v56) (TRef.of (T := ⟨S50000, .f32⟩) main_v59) (TRef.of (T := ⟨S50000, .f32⟩) main_call2_v1) (TRef.of (T := ⟨S50000, .f32⟩) main_v60) select ]

/-- The edge weights again. -/
abbrev rOpsH : List (HloOp τ sig (Elt F)) :=
  [ nullary main_c_15 (constantI S_ 32 0#32),
    unary main_c_15 main_v61 (broadcastInDim S850000 ![] bcast_S_S850000 : (⟨S_, .i32⟩ : BufTy).Contents (Elt F) → (⟨S850000, .i32⟩ : BufTy).Contents (Elt F)),
    binary main_v3 main_v61 main_v62 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v63 (broadcastInDim S850000 ![] bcast_S_S850000 : (⟨S_, .i32⟩ : BufTy).Contents (Elt F) → (⟨S850000, .i32⟩ : BufTy).Contents (Elt F)),
    binary main_v3 main_v63 main_v64 (addi : (⟨S850000, .i32⟩ : BufTy).Contents (Elt F) → (⟨S850000, .i32⟩ : BufTy).Contents (Elt F) → (⟨S850000, .i32⟩ : BufTy).Contents (Elt F)),
    ternary main_v62 main_v64 main_v3 main_v65 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v65 main_v66 (broadcastInDim S850000x1 ![0] bcast_S850000_S850000x1_0 : (⟨S850000, .i32⟩ : BufTy).Contents (Elt F) → (⟨S850000x1, .i32⟩ : BufTy).Contents (Elt F)),
    binary main_v60 main_v66 main_v67 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_17 (constantI S_ 32 0#32),
    unary main_c_17 main_v68 (broadcastInDim S850000 ![] bcast_S_S850000 : (⟨S_, .i32⟩ : BufTy).Contents (Elt F) → (⟨S850000, .i32⟩ : BufTy).Contents (Elt F)),
    binary main_v6 main_v68 main_v69 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v70 (broadcastInDim S850000 ![] bcast_S_S850000 : (⟨S_, .i32⟩ : BufTy).Contents (Elt F) → (⟨S850000, .i32⟩ : BufTy).Contents (Elt F)),
    binary main_v6 main_v70 main_v71 (addi : (⟨S850000, .i32⟩ : BufTy).Contents (Elt F) → (⟨S850000, .i32⟩ : BufTy).Contents (Elt F) → (⟨S850000, .i32⟩ : BufTy).Contents (Elt F)),
    ternary main_v69 main_v71 main_v6 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v72 main_v73 (broadcastInDim S850000x1 ![0] bcast_S850000_S850000x1_0 : (⟨S850000, .i32⟩ : BufTy).Contents (Elt F) → (⟨S850000x1, .i32⟩ : BufTy).Contents (Elt F)),
    binary main_v60 main_v73 main_v74 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v67 main_v74 main_v75 (mulf : (⟨S850000, .f32⟩ : BufTy).Contents (Elt F) → (⟨S850000, .f32⟩ : BufTy).Contents (Elt F) → (⟨S850000, .f32⟩ : BufTy).Contents (Elt F)) ]

/-- The second aggregation layer. -/
abbrev rOpsI : List (HloOp τ sig (Elt F)) :=
  [ nullary main_c_19 (constantI S_ 32 0#32),
    unary main_c_19 main_v76 (broadcastInDim S850000 ![] bcast_S_S850000 : (⟨S_, .i32⟩ : BufTy).Contents (Elt F) → (⟨S850000, .i32⟩ : BufTy).Contents (Elt F)),
    binary main_v3 main_v76 main_v77 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v78 (broadcastInDim S850000 ![] bcast_S_S850000 : (⟨S_, .i32⟩ : BufTy).Contents (Elt F) → (⟨S850000, .i32⟩ : BufTy).Contents (Elt F)),
    binary main_v3 main_v78 main_v79 (addi : (⟨S850000, .i32⟩ : BufTy).Contents (Elt F) → (⟨S850000, .i32⟩ : BufTy).Contents (Elt F) → (⟨S850000, .i32⟩ : BufTy).Contents (Elt F)),
    ternary main_v77 main_v79 main_v3 main_v80 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v80 main_v81 (broadcastInDim S850000x1 ![0] bcast_S850000_S850000x1_0 : (⟨S850000, .i32⟩ : BufTy).Contents (Elt F) → (⟨S850000x1, .i32⟩ : BufTy).Contents (Elt F)),
    binary main_v50 main_v81 main_v82 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v75 main_v83 (broadcastInDim S850000x1 ![0] bcast_S850000_S850000x1_0 : (⟨S850000, .f32⟩ : BufTy).Contents (Elt F) → (⟨S850000x1, .f32⟩ : BufTy).Contents (Elt F)),
    unary main_v83 main_v84 (broadcastInDim S850000x128 ![0, 1] bcast_S850000x1_S850000x128_0_1 : (⟨S850000x1, .f32⟩ : BufTy).Contents (Elt F) → (⟨S850000x128, .f32⟩ : BufTy).Contents (Elt F)),
    binary main_v82 main_v84 main_v85 (mulf : (⟨S850000x128, .f32⟩ : BufTy).Contents (Elt F) → (⟨S850000x128, .f32⟩ : BufTy).Contents (Elt F) → (⟨S850000x128, .f32⟩ : BufTy).Contents (Elt F)),
    nullary main_cst_21 (constant S_ .f32 0x00000000#32),
    unary main_cst_21 main_v86 (broadcastInDim S50000x128 ![] bcast_S_S50000x128 : (⟨S_, .f32⟩ : BufTy).Contents (Elt F) → (⟨S50000x128, .f32⟩ : BufTy).Contents (Elt F)),
    unary main_v6 main_v87 (broadcastInDim S850000x1 ![0] bcast_S850000_S850000x1_0 : (⟨S850000, .i32⟩ : BufTy).Contents (Elt F) → (⟨S850000x1, .i32⟩ : BufTy).Contents (Elt F)),
    ternary main_v86 main_v87 main_v85 main_v88 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v89 (broadcastInDim S1x128 ![1] bcast_S128_S1x128_1 : (⟨S128, .f32⟩ : BufTy).Contents (Elt F) → (⟨S1x128, .f32⟩ : BufTy).Contents (Elt F)),
    unary main_v89 main_v90 (broadcastInDim S50000x128 ![0, 1] bcast_S1x128_S50000x128_0_1 : (⟨S1x128, .f32⟩ : BufTy).Contents (Elt F) → (⟨S50000x128, .f32⟩ : BufTy).Contents (Elt F)),
    binary main_v88 main_v90 main_v91 (addf : (⟨S50000x128, .f32⟩ : BufTy).Contents (Elt F) → (⟨S50000x128, .f32⟩ : BufTy).Contents (Elt F) → (⟨S50000x128, .f32⟩ : BufTy).Contents (Elt F)) ]

/-- The log-softmax, first part: the row maxima. -/
abbrev rOpsJ1g (g : (⟨S50000x128, .f32⟩ : BufTy).Contents (Elt F) → (⟨S_, .f32⟩ : BufTy).Contents (Elt F) → (⟨S50000, .f32⟩ : BufTy).Contents (Elt F)) : List (HloOp τ sig (Elt F)) :=
  [ TRef.nullary (TRef.of (T := ⟨S_, .f32⟩) main_call3_cst) (constant S_ .f32 0xFF800000#32),
    TRef.binary (TRef.of (T := ⟨S50000x128, .f32⟩) main_v91) (TRef.of (T := ⟨S_, .f32⟩) main_call3_cst) (TRef.of (T := ⟨S50000, .f32⟩) main_call3_v0) g,
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf ]

/-- The same stretch with the reference's reduction: a maximum over each row. -/
abbrev rOpsJ1 : List (HloOp τ sig (Elt F)) := rOpsJ1g (fun x v => Host.reduce FloatOps.maximumf x v reducesTo_S50000x128_S50000_d1 h_S_)

/-- The log-softmax, second part: the rows minus their maxima. -/
abbrev rOpsJ2 : List (HloOp τ sig (Elt F)) :=
  [ TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x128, .f32⟩) main_call3_v4) (broadcastInDim S50000x128 ![0, 1] bcast_S50000x1_S50000x128_0_1),
    TRef.binary (TRef.of (T := ⟨S50000x128, .f32⟩) main_v91) (TRef.of (T := ⟨S50000x128, .f32⟩) main_call3_v4) (TRef.of (T := ⟨S50000x128, .f32⟩) main_call3_v5) subf ]

/-- The log-softmax, third part: the sums of the exponentials, as a column. -/
abbrev rOpsJ3g (g : (⟨S50000x128, .f32⟩ : BufTy).Contents (Elt F) → (⟨S_, .f32⟩ : BufTy).Contents (Elt F) → (⟨S50000, .f32⟩ : BufTy).Contents (Elt F)) : List (HloOp τ sig (Elt F)) :=
  [ TRef.unary (TRef.of (T := ⟨S50000x128, .f32⟩) main_call3_v5) (TRef.of (T := ⟨S50000x128, .f32⟩) main_call3_v6) Host.exp,
    TRef.nullary (TRef.of (T := ⟨S_, .f32⟩) main_call3_cst_1) (constant S_ .f32 0x00000000#32),
    TRef.binary (TRef.of (T := ⟨S50000x128, .f32⟩) main_call3_v6) (TRef.of (T := ⟨S_, .f32⟩) main_call3_cst_1) (TRef.of (T := ⟨S50000, .f32⟩) main_call3_v7) g,
    TRef.unary (TRef.of (T := ⟨S50000, .f32⟩) main_call3_v7) (TRef.of (T := ⟨S50000x1, .f32⟩) main_call3_v8) (broadcastInDim S50000x1 ![0] bcast_S50000_S50000x1_0) ]

/-- The same stretch with the reference's reduction: a sum over each row. -/
abbrev rOpsJ3 : List (HloOp τ sig (Elt F)) := rOpsJ3g (fun x v => Host.reduceAdd x v reducesTo_S50000x128_S50000_d1 h_S_)

/-- The log-softmax, last part: minus the logarithm of the sums. -/
abbrev rOpsJ4 : List (HloOp τ sig (Elt F)) :=
  [ TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x128, .f32⟩) main_call3_v10) (broadcastInDim S50000x128 ![0, 1] bcast_S50000x1_S50000x128_0_1),
    TRef.binary (TRef.of (T := ⟨S50000x128, .f32⟩) main_call3_v5) (TRef.of (T := ⟨S50000x128, .f32⟩) main_call3_v10) (TRef.of (T := ⟨S50000x128, .f32⟩) main_v92) subf ]

/-- The program's operation list is the stretches in order. -/
theorem ops_split : (ops : List (HloOp τ sig (Elt F)))
    = rOpsA ++ (rOpsB ++ (rOpsC ++ (rOpsD ++ (rOpsE ++ (rOpsG ++ (rOpsH ++ (rOpsI ++ (rOpsJ1 ++ (rOpsJ2 ++ (rOpsJ3 ++ rOpsJ4)))))))))) := rfl

variable (X : Valuation τ sig (Elt F))

/-! ## Stretch A -/

theorem rA_v3 : after (rOpsA (F := F)) X (Proc.devRef .tc main_v3) = srcK (X (Proc.devRef .tc main_arg1)) := by
  unfold srcK; after_results; rfl
theorem rA_v6 : after (rOpsA (F := F)) X (Proc.devRef .tc main_v6) = dstK (X (Proc.devRef .tc main_arg1)) := by
  unfold dstK; after_results; rfl
theorem rA_v7 : after (rOpsA (F := F)) X (Proc.devRef .tc main_v7) = dotR (X (Proc.devRef .tc main_arg0)) (X (Proc.devRef .tc main_arg2)) := by
  unfold dotR; after_results <;> rfl
theorem rA_v13 : after (rOpsA (F := F)) X (Proc.devRef .tc main_v13) = posK (dstK (X (Proc.devRef .tc main_arg1))) := by
  unfold posK degK dstK; after_results; rfl
theorem rA_v16 : after (rOpsA (F := F)) X (Proc.devRef .tc main_v16) = rsqK (dstK (X (Proc.devRef .tc main_arg1))) := by
  unfold rsqK degK dstK; after_results; rfl
theorem rA_cst_3 : after (rOpsA (F := F)) X (Proc.devRef .tc main_cst_3) = constant S_ .f32 0x00000000#32 := by
  after_results <;> rfl
theorem rA_arg3 : after (rOpsA (F := F)) X (Proc.devRef .tc main_arg3) = X (Proc.devRef .tc main_arg3) := by
  after_results <;> rfl
theorem rA_arg4 : after (rOpsA (F := F)) X (Proc.devRef .tc main_arg4) = X (Proc.devRef .tc main_arg4) := by
  after_results <;> rfl
theorem rA_arg5 : after (rOpsA (F := F)) X (Proc.devRef .tc main_arg5) = X (Proc.devRef .tc main_arg5) := by
  after_results <;> rfl

/-! ## Stretch B -/

theorem rB_v17 : after (rOpsB (F := F)) X (Proc.devRef .tc main_v17)
    = whereK (X (Proc.devRef .tc main_v13)) (X (Proc.devRef .tc main_v16)) (X (Proc.devRef .tc main_cst_3)) := by
  unfold whereK; after_results <;> rfl
theorem rB_v3 : after (rOpsB (F := F)) X (Proc.devRef .tc main_v3) = X (Proc.devRef .tc main_v3) := by
  after_results <;> rfl
theorem rB_v6 : after (rOpsB (F := F)) X (Proc.devRef .tc main_v6) = X (Proc.devRef .tc main_v6) := by
  after_results <;> rfl
theorem rB_v7 : after (rOpsB (F := F)) X (Proc.devRef .tc main_v7) = X (Proc.devRef .tc main_v7) := by
  after_results <;> rfl
theorem rB_arg3 : after (rOpsB (F := F)) X (Proc.devRef .tc main_arg3) = X (Proc.devRef .tc main_arg3) := by
  after_results <;> rfl
theorem rB_arg4 : after (rOpsB (F := F)) X (Proc.devRef .tc main_arg4) = X (Proc.devRef .tc main_arg4) := by
  after_results <;> rfl
theorem rB_arg5 : after (rOpsB (F := F)) X (Proc.devRef .tc main_arg5) = X (Proc.devRef .tc main_arg5) := by
  after_results <;> rfl

/-! ## Stretch C -/

theorem rC_v32 : after (rOpsC (F := F)) X (Proc.devRef .tc main_v32)
    = normK (X (Proc.devRef .tc main_v17)) (X (Proc.devRef .tc main_v3)) (X (Proc.devRef .tc main_v6)) := by
  unfold normK wrapK; after_results_simp <;> rfl
theorem rC_v3 : after (rOpsC (F := F)) X (Proc.devRef .tc main_v3) = X (Proc.devRef .tc main_v3) := by
  after_results <;> rfl
theorem rC_v6 : after (rOpsC (F := F)) X (Proc.devRef .tc main_v6) = X (Proc.devRef .tc main_v6) := by
  after_results <;> rfl
theorem rC_v7 : after (rOpsC (F := F)) X (Proc.devRef .tc main_v7) = X (Proc.devRef .tc main_v7) := by
  after_results <;> rfl
theorem rC_arg3 : after (rOpsC (F := F)) X (Proc.devRef .tc main_arg3) = X (Proc.devRef .tc main_arg3) := by
  after_results <;> rfl
theorem rC_arg4 : after (rOpsC (F := F)) X (Proc.devRef .tc main_arg4) = X (Proc.devRef .tc main_arg4) := by
  after_results <;> rfl
theorem rC_arg5 : after (rOpsC (F := F)) X (Proc.devRef .tc main_arg5) = X (Proc.devRef .tc main_arg5) := by
  after_results <;> rfl

/-! ## Stretch D -/

theorem rD_v48 : after (rOpsD (F := F)) X (Proc.devRef .tc main_v48)
    = aggK (X (Proc.devRef .tc main_v7)) (X (Proc.devRef .tc main_v3)) (X (Proc.devRef .tc main_v6)) (X (Proc.devRef .tc main_v32)) (X (Proc.devRef .tc main_arg3)) := by
  unfold aggK wrapK; after_results_simp <;> rfl
theorem rD_v3 : after (rOpsD (F := F)) X (Proc.devRef .tc main_v3) = X (Proc.devRef .tc main_v3) := by
  after_results <;> rfl
theorem rD_v6 : after (rOpsD (F := F)) X (Proc.devRef .tc main_v6) = X (Proc.devRef .tc main_v6) := by
  after_results <;> rfl
theorem rD_arg4 : after (rOpsD (F := F)) X (Proc.devRef .tc main_arg4) = X (Proc.devRef .tc main_arg4) := by
  after_results <;> rfl
theorem rD_arg5 : after (rOpsD (F := F)) X (Proc.devRef .tc main_arg5) = X (Proc.devRef .tc main_arg5) := by
  after_results <;> rfl

/-! ## Stretch E -/

theorem rE_v50 : after (rOpsE (F := F)) X (Proc.devRef .tc main_v50) = dotR (reluR (X (Proc.devRef .tc main_v48))) (X (Proc.devRef .tc main_arg4)) := by
  unfold dotR reluR; after_results <;> rfl
theorem rE_v3 : after (rOpsE (F := F)) X (Proc.devRef .tc main_v3) = X (Proc.devRef .tc main_v3) := by
  after_results <;> rfl
theorem rE_v6 : after (rOpsE (F := F)) X (Proc.devRef .tc main_v6) = X (Proc.devRef .tc main_v6) := by
  after_results <;> rfl
theorem rE_arg5 : after (rOpsE (F := F)) X (Proc.devRef .tc main_arg5) = X (Proc.devRef .tc main_arg5) := by
  after_results <;> rfl

/-! ## Stretch G -/

theorem rG_v60 : after (rOpsG (F := F)) X (Proc.devRef .tc main_v60)
    = whereK (posK (X (Proc.devRef .tc main_v6))) (rsqK (X (Proc.devRef .tc main_v6))) (constant S_ .f32 0x00000000#32) := by
  unfold whereK posK rsqK degK; after_results_simp <;> rfl
theorem rG_v3 : after (rOpsG (F := F)) X (Proc.devRef .tc main_v3) = X (Proc.devRef .tc main_v3) := by
  after_results <;> rfl
theorem rG_v6 : after (rOpsG (F := F)) X (Proc.devRef .tc main_v6) = X (Proc.devRef .tc main_v6) := by
  after_results <;> rfl
theorem rG_v50 : after (rOpsG (F := F)) X (Proc.devRef .tc main_v50) = X (Proc.devRef .tc main_v50) := by
  after_results <;> rfl
theorem rG_arg5 : after (rOpsG (F := F)) X (Proc.devRef .tc main_arg5) = X (Proc.devRef .tc main_arg5) := by
  after_results <;> rfl

/-! ## Stretch H -/

theorem rH_v75 : after (rOpsH (F := F)) X (Proc.devRef .tc main_v75)
    = normK (X (Proc.devRef .tc main_v60)) (X (Proc.devRef .tc main_v3)) (X (Proc.devRef .tc main_v6)) := by
  unfold normK wrapK; after_results_simp <;> rfl
theorem rH_v3 : after (rOpsH (F := F)) X (Proc.devRef .tc main_v3) = X (Proc.devRef .tc main_v3) := by
  after_results <;> rfl
theorem rH_v6 : after (rOpsH (F := F)) X (Proc.devRef .tc main_v6) = X (Proc.devRef .tc main_v6) := by
  after_results <;> rfl
theorem rH_v50 : after (rOpsH (F := F)) X (Proc.devRef .tc main_v50) = X (Proc.devRef .tc main_v50) := by
  after_results <;> rfl
theorem rH_arg5 : after (rOpsH (F := F)) X (Proc.devRef .tc main_arg5) = X (Proc.devRef .tc main_arg5) := by
  after_results <;> rfl

/-! ## Stretch I -/

theorem rI_v91 : after (rOpsI (F := F)) X (Proc.devRef .tc main_v91)
    = aggK (X (Proc.devRef .tc main_v50)) (X (Proc.devRef .tc main_v3)) (X (Proc.devRef .tc main_v6)) (X (Proc.devRef .tc main_v75)) (X (Proc.devRef .tc main_arg5)) := by
  unfold aggK wrapK; after_results_simp <;> rfl

/-! ## The log-softmax, part by part -/

/-- The rows minus a vector of row values. -/
def shiftByR (y : (⟨S50000x128, .f32⟩ : BufTy).Contents (Elt F)) (mx : (⟨S50000, .f32⟩ : BufTy).Contents (Elt F)) :
    (⟨S50000x128, .f32⟩ : BufTy).Contents (Elt F) :=
  subf y (broadcastInDim S50000x128 ![0, 1] bcast_S50000x1_S50000x128_0_1 (broadcastInDim S50000x1 ![0] bcast_S50000_S50000x1_0 mx))

/-- The sums over each row of the exponentials, as a column. -/
def expSumColR (z : (⟨S50000x128, .f32⟩ : BufTy).Contents (Elt F)) : (⟨S50000x1, .f32⟩ : BufTy).Contents (Elt F) :=
  broadcastInDim S50000x1 ![0] bcast_S50000_S50000x1_0
    (Host.reduceAdd (Host.exp z) (constant S_ .f32 0x00000000#32) reducesTo_S50000x128_S50000_d1 h_S_)

/-- A matrix minus the logarithm of a column, the column spread along the rows. -/
def minusLogColR (z : (⟨S50000x128, .f32⟩ : BufTy).Contents (Elt F)) (s : (⟨S50000x1, .f32⟩ : BufTy).Contents (Elt F)) :
    (⟨S50000x128, .f32⟩ : BufTy).Contents (Elt F) :=
  subf z (broadcastInDim S50000x128 ![0, 1] bcast_S50000x1_S50000x128_0_1 (Host.log s))

/-- The reference's log-softmax is these three steps after the row maxima. -/
theorem lsmR_steps (y : (⟨S50000x128, .f32⟩ : BufTy).Contents (Elt F)) :
    lsmR y = minusLogColR (shiftByR y (lsmMaxR y)) (expSumColR (shiftByR y (lsmMaxR y))) := rfl

/-- The first part for ANY reduction `g` in the reduction's place: the reduction is applied, never opened. -/
theorem rJ1g_v2 (g : (⟨S50000x128, .f32⟩ : BufTy).Contents (Elt F) → (⟨S_, .f32⟩ : BufTy).Contents (Elt F) → (⟨S50000, .f32⟩ : BufTy).Contents (Elt F)) :
    after (rOpsJ1g (F := F) g) X (Proc.devRef .tc main_call3_v2)
      = maximumf (broadcastInDim S50000 ![] bcast_S_S50000 (constant S_ .f32 0xFF800000#32))
          (g (X (Proc.devRef .tc main_v91)) (constant S_ .f32 0xFF800000#32)) := by
  after_results <;> rfl
theorem rJ1_v2 : after (rOpsJ1 (F := F)) X (Proc.devRef .tc main_call3_v2) = lsmMaxR (X (Proc.devRef .tc main_v91)) :=
  rJ1g_v2 X _
theorem rJ1g_v91 (g : (⟨S50000x128, .f32⟩ : BufTy).Contents (Elt F) → (⟨S_, .f32⟩ : BufTy).Contents (Elt F) → (⟨S50000, .f32⟩ : BufTy).Contents (Elt F)) :
    after (rOpsJ1g (F := F) g) X (Proc.devRef .tc main_v91) = X (Proc.devRef .tc main_v91) := by
  after_results <;> rfl
theorem rJ1_v91 : after (rOpsJ1 (F := F)) X (Proc.devRef .tc main_v91) = X (Proc.devRef .tc main_v91) :=
  rJ1g_v91 X _

theorem rJ2_v5 : after (rOpsJ2 (F := F)) X (Proc.devRef .tc main_call3_v5) = shiftByR (X (Proc.devRef .tc main_v91)) (X (Proc.devRef .tc main_call3_v2)) := by
  unfold shiftByR; after_results <;> rfl

theorem rJ3g_v8 (g : (⟨S50000x128, .f32⟩ : BufTy).Contents (Elt F) → (⟨S_, .f32⟩ : BufTy).Contents (Elt F) → (⟨S50000, .f32⟩ : BufTy).Contents (Elt F)) :
    after (rOpsJ3g (F := F) g) X (Proc.devRef .tc main_call3_v8)
      = broadcastInDim S50000x1 ![0] bcast_S50000_S50000x1_0 (g (Host.exp (X (Proc.devRef .tc main_call3_v5))) (constant S_ .f32 0x00000000#32)) := by
  after_results <;> rfl
theorem rJ3_v8 : after (rOpsJ3 (F := F)) X (Proc.devRef .tc main_call3_v8) = expSumColR (X (Proc.devRef .tc main_call3_v5)) :=
  rJ3g_v8 X _
theorem rJ3g_v5 (g : (⟨S50000x128, .f32⟩ : BufTy).Contents (Elt F) → (⟨S_, .f32⟩ : BufTy).Contents (Elt F) → (⟨S50000, .f32⟩ : BufTy).Contents (Elt F)) :
    after (rOpsJ3g (F := F) g) X (Proc.devRef .tc main_call3_v5) = X (Proc.devRef .tc main_call3_v5) := by
  after_results <;> rfl
theorem rJ3_v5 : after (rOpsJ3 (F := F)) X (Proc.devRef .tc main_call3_v5) = X (Proc.devRef .tc main_call3_v5) :=
  rJ3g_v5 X _

theorem rJ4_v92 : after (rOpsJ4 (F := F)) X (Proc.devRef .tc main_v92) = minusLogColR (X (Proc.devRef .tc main_call3_v5)) (X (Proc.devRef .tc main_call3_v8)) := by
  unfold minusLogColR; after_results <;> rfl

/-- The four parts in order: the result is the reference's log-softmax of the buffer they read. -/
theorem rJ_v92 : after (rOpsJ4 (F := F)) (after rOpsJ3 (after rOpsJ2 (after rOpsJ1 X))) (Proc.devRef .tc main_v92)
    = lsmR (X (Proc.devRef .tc main_v91)) := by
  rw [rJ4_v92, rJ3_v8, rJ3_v5, rJ2_v5, rJ1_v2, rJ1_v91, lsmR_steps]

end Cert.Gcn

end
-- ==== Proof.RStages.lean ====
/-
  The reference's three dense stages, read at the exact instance as row functions.

  The reference computes on whole 50000 × 128 matrices: a `dot_general` with a 128 × 128 weight matrix, the rectifier
  as a maximum with a zero matrix, and the logarithm of the softmax along each row (a row maximum from minus infinity,
  a second maximum with minus infinity that changes nothing, the difference, the sum of its exponentials from zero, the
  logarithm, the second difference). Each is the corresponding row function of Spec.lean applied to every row.
-/
import proofs.«146059_j75814762709760_1_alg».proof.ReferenceIdeal
import proofs.«146059_j75814762709760_1_alg».proof.Proof.Gen.ReferenceIdeal
import proofs.«146059_j75814762709760_1_alg».proof.Proof.Spec
import proofs.«146059_j75814762709760_1_alg».proof.Proof.RDefs
import Idealize.ShloMosaic.PureOps.Ideal.Laws
import Idealize.ShloMosaic.Lib.ValueIdx
import Idealize.ShloMosaic.Lib.Pipeline.Value

noncomputable section

open scoped BigOperators

namespace Cert.Gcn

open Idealize.ShloMosaic Idealize.ShloMosaic.ValueIdx Cert.ReferenceIdeal Cert.ReferenceIdeal.Gen

/-- Row coordinate of the left operand's index in the reference's product: the output's row. -/
theorem ref_lhs_mm_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
/-- Column coordinate of the left operand's index: the contraction position. -/
theorem ref_lhs_mm_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
/-- Row coordinate of the right operand's index: the contraction position. -/
theorem ref_rhs_mm_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
/-- Column coordinate of the right operand's index: the output's column. -/
theorem ref_rhs_mm_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's product read at entry (p, q): the sum over k of the left operand at (p, k) times the right operand
    at (k, q); the host's product has no accumulator. -/
theorem ref_dot_apply (l : FVec Ideal S50000x128 .f32) (r : FVec Ideal S128x128 .f32) (p : Fin 50000) (q : Fin 128) :
    FloatOps.dotGeneral dot_S50000x128_S128x128_S50000x128_1_0_0_1_n_n none .single l r (ix2 p q)
      = ∑ k : Fin 128, l (ix2 p k) * r (ix2 k q) := by
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact ref_lhs_mm_0 _ _
    | ⟨1, _⟩ => exact (ref_lhs_mm_1 _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (ref_rhs_mm_0 _ _).trans hk
    | ⟨1, _⟩ => exact ref_rhs_mm_1 _ _)
  rw [el, er]

/-- The host's product with the weights is every row times the weights. -/
theorem dotR_eq (l : FVec Ideal S50000x128 .f32) (r : FVec Ideal S128x128 .f32) :
    dotR (F := Ideal) l r = rowMap (mmRow r) l := by
  funext i
  obtain ⟨p, q, rfl⟩ : ∃ (p : Fin 50000) (q : Fin 128), i = ix2 p q := ⟨i 0, i 1, eq_ix2 i⟩
  unfold dotR
  simp only [Host.dotGeneral]
  refine (ref_dot_apply l r p q).trans ?_
  rfl

/-- A scalar constant broadcast to the whole matrix reads, at any entry, as the constant's value. -/
theorem ref_scalarBcast_apply (w : BitVec 32) (i : S50000x128.Idx) :
    broadcastInDim S50000x128 ![] bcast_S_S50000x128 (constant (F := Ideal) S_ .f32 w) i = Ideal.ofBits .f32 w := by
  refine (broadcastInDim_apply _ _ _ i (fun a => a.elim0) (fun a => a.elim0)).trans ?_
  rfl

/-- The host's rectifier is the rectifier of every row. -/
theorem reluR_eq (y : FVec Ideal S50000x128 .f32) : reluR (F := Ideal) y = rowMap reluRow y := by
  funext i
  obtain ⟨p, q, rfl⟩ : ∃ (p : Fin 50000) (q : Fin 128), i = ix2 p q := ⟨i 0, i 1, eq_ix2 i⟩
  unfold reluR
  rw [maximumf_apply, ref_scalarBcast_apply]
  rfl

/-- The index a row reduction of the whole matrix inserts at row `p` and column `k` is (p, k). -/
theorem ref_lift_row (h : S50000x128.Reduces [1] S50000) (p : Fin 50000) (k : Fin 128) :
    h.lift (ix1 p) k = ix2 p k := by
  funext c; apply Fin.ext; fin_cases c <;> rfl

/-- A scalar constant broadcast to a vector of one entry per row reads, at any row, as the constant's value. -/
theorem ref_scalarBcastRow_apply (w : BitVec 32) (i : S50000.Idx) :
    broadcastInDim S50000 ![] bcast_S_S50000 (constant (F := Ideal) S_ .f32 w) i = Ideal.ofBits .f32 w := by
  refine (broadcastInDim_apply _ _ _ i (fun a => a.elim0) (fun a => a.elim0)).trans ?_
  rfl

/-- The host's reduction by maximum along the rows, from minus infinity, read at row `p`: the maximum of that row. -/
theorem ref_reduceMax_apply (y : FVec Ideal S50000x128 .f32) (h' : S50000x128.ReducesTo [1] S50000) (hu : 0 < S_.numel)
    (p : Fin 50000) :
    Host.reduce FloatOps.maximumf y (constant (F := Ideal) S_ .f32 0xFF800000#32) h' hu (ix1 p) = rowMax (rowAt y p) := by
  have h : S50000x128.Reduces [1] S50000 := by decide
  rw [Host.reduce_eq_fold_single FloatOps.maximumf y _ h' h hu]
  unfold rowMax
  show (Finset.univ : Finset (Fin 128)).fold max negInfF (y ∘ h.lift (ix1 p)) = _
  congr 1
  funext k
  exact congrArg y (ref_lift_row h p k)

/-- The row maxima as the reference takes them, read at row `p`: the maximum of that row (the second maximum, with
    minus infinity, changes nothing). -/
theorem ref_lsmMaxR_apply (y : FVec Ideal S50000x128 .f32) (p : Fin 50000) :
    lsmMaxR (F := Ideal) y (ix1 p) = rowMax (rowAt y p) := by
  unfold lsmMaxR
  rw [maximumf_apply, ref_scalarBcastRow_apply, ref_reduceMax_apply]
  exact max_negInfF _

/-- A column broadcast along the rows reads, at (p, q), as the column at (p, 0). -/
theorem ref_rowBcast_apply {α : Type} (w : S50000x1.Idx → α) (p : Fin 50000) (q : Fin 128) :
    broadcastInDim S50000x128 ![0, 1] bcast_S50000x1_S50000x128_0_1 w (ix2 p q) = w (ix2 p (0 : Fin 1)) := by
  refine broadcastInDim_apply _ _ _ (ix2 p q) (ix2 p (0 : Fin 1)) ?_
  intro a
  fin_cases a
  · rfl
  · rfl

/-- A vector of one entry per row made a column reads, at (p, 0), as the vector at p. -/
theorem ref_col_apply {α : Type} (w : S50000.Idx → α) (p : Fin 50000) :
    broadcastInDim S50000x1 ![0] bcast_S50000_S50000x1_0 w (ix2 p (0 : Fin 1)) = w (ix1 p) := by
  refine broadcastInDim_apply _ _ _ (ix2 p (0 : Fin 1)) (ix1 p) ?_
  intro a
  fin_cases a
  rfl

/-- A vector of one entry per row, made a column and broadcast along the rows, reads at (p, q) as the vector at p. -/
theorem ref_colBcast_apply {α : Type} (w : S50000.Idx → α) (p : Fin 50000) (q : Fin 128) :
    broadcastInDim S50000x128 ![0, 1] bcast_S50000x1_S50000x128_0_1 (broadcastInDim S50000x1 ![0] bcast_S50000_S50000x1_0 w) (ix2 p q)
      = w (ix1 p) := by
  rw [ref_rowBcast_apply, ref_col_apply]

/-- The shifted matrix read at (p, q): the entry minus the maximum of its row. -/
theorem ref_lsmShiftR_apply (y : FVec Ideal S50000x128 .f32) (p : Fin 50000) (q : Fin 128) :
    lsmShiftR (F := Ideal) y (ix2 p q) = y (ix2 p q) - rowMax (rowAt y p) := by
  unfold lsmShiftR
  rw [subf_apply, ref_colBcast_apply, ref_lsmMaxR_apply]

/-- The host's exponential and logarithm act entry by entry. -/
theorem ref_hostExp_apply {s : Shape} (x : FVec Ideal s .f32) (i : s.Idx) : Host.exp x i = Ideal.exp (x i) := rfl
theorem ref_hostLog_apply {s : Shape} (x : FVec Ideal s .f32) (i : s.Idx) : Host.log x i = Ideal.log (x i) := rfl

/-- The host's sum along the rows, from zero, read at row `p`: the sum of that row. -/
theorem ref_reduceAdd_apply (x : FVec Ideal S50000x128 .f32) (h' : S50000x128.ReducesTo [1] S50000) (hu : 0 < S_.numel)
    (p : Fin 50000) :
    Host.reduceAdd x (constant (F := Ideal) S_ .f32 0x00000000#32) h' hu (ix1 p) = ∑ k : Fin 128, x (ix2 p k) := by
  have h : S50000x128.Reduces [1] S50000 := by decide
  simp only [Host.reduceAdd, Ideal.hostReduceAdd_def]
  rw [Ideal.hostReduceAdd_single h' h x _ (ix1 p)]
  show Ideal.ofBits .f32 0x00000000#32 + ∑ k : Fin 128, x (h.lift (ix1 p) k) = _
  rw [Ideal.ofBits_zero_f32, zero_add]
  exact Finset.sum_congr rfl fun k _ => congrArg x (ref_lift_row h p k)

/-- The host's log-softmax is the log-softmax of every row. -/
theorem lsmR_eq (y : FVec Ideal S50000x128 .f32) : lsmR (F := Ideal) y = rowMap lsmRow y := by
  funext i
  obtain ⟨p, q, rfl⟩ : ∃ (p : Fin 50000) (q : Fin 128), i = ix2 p q := ⟨i 0, i 1, eq_ix2 i⟩
  rw [rowMap_ix2]
  unfold lsmR lsmRow
  rw [subf_apply, ref_rowBcast_apply, ref_lsmShiftR_apply, ref_hostLog_apply, ref_col_apply, ref_reduceAdd_apply]
  refine congrArg (fun t => rowAt y p q - rowMax (rowAt y p) - Ideal.log t) ?_
  refine Finset.sum_congr rfl fun k _ => ?_
  rw [ref_hostExp_apply, ref_lsmShiftR_apply]
  rfl

end Cert.Gcn

end
-- ==== Proof.RValue.lean ====
/-
  The reference program's result buffer as the network's function of the six arguments.

  The nine stretches are composed from the end: the result is the log-softmax of the second aggregation; that
  aggregates the product with `W2` of the rectified first aggregation; that aggregates the product of `x` with `W1`.
  The index lists are written once, in the first stretch, and kept by every later one; the edge weights the second
  layer uses are computed anew from the same lists and are the same function of them. The three dense stages are then
  read as row functions, which is how the kernel's tiled regions compute them.
-/
import proofs.«146059_j75814762709760_1_alg».proof.Proof.RHost
import proofs.«146059_j75814762709760_1_alg».proof.Proof.RStages
import proofs.«146059_j75814762709760_1_alg».proof.Proof.GcnOut

set_option maxRecDepth 16384

noncomputable section

namespace Cert.Gcn

open Idealize.ShloMosaic Idealize.ShloMosaic.TcCoe Idealize.SL.Sem Idealize.ShloMosaic.StableHlo
open Cert.ReferenceIdeal Cert.ReferenceIdeal.Gen Cert.ReferenceIdeal.ValueP

variable (X : Valuation τ sig (Elt Ideal))

/-- The buffer contents after the first stretch, the second, … -/
abbrev R1 : Valuation τ sig (Elt Ideal) := after rOpsA X
abbrev R2 : Valuation τ sig (Elt Ideal) := after rOpsB (R1 X)
abbrev R3 : Valuation τ sig (Elt Ideal) := after rOpsC (R2 X)
abbrev R4 : Valuation τ sig (Elt Ideal) := after rOpsD (R3 X)
abbrev R5 : Valuation τ sig (Elt Ideal) := after rOpsE (R4 X)
abbrev R6 : Valuation τ sig (Elt Ideal) := after rOpsG (R5 X)
abbrev R7 : Valuation τ sig (Elt Ideal) := after rOpsH (R6 X)
abbrev R8 : Valuation τ sig (Elt Ideal) := after rOpsI (R7 X)
abbrev R9 : Valuation τ sig (Elt Ideal) := after rOpsJ4 (after rOpsJ3 (after rOpsJ2 (after rOpsJ1 (R8 X))))

/-- After the whole operation list the buffers are at the last boundary's contents. -/
theorem after_ops : after (ops (F := Ideal)) X = R9 X := by
  rw [ops_split]
  simp only [StableHlo.after_append]

/-! ## The index lists, kept through every stretch -/

theorem R1_v3 : R1 X (Proc.devRef .tc main_v3) = srcK (X (Proc.devRef .tc main_arg1)) := rA_v3 X
theorem R1_v6 : R1 X (Proc.devRef .tc main_v6) = dstK (X (Proc.devRef .tc main_arg1)) := rA_v6 X
theorem R2_v3 : R2 X (Proc.devRef .tc main_v3) = srcK (X (Proc.devRef .tc main_arg1)) := (rB_v3 (R1 X)).trans (R1_v3 X)
theorem R2_v6 : R2 X (Proc.devRef .tc main_v6) = dstK (X (Proc.devRef .tc main_arg1)) := (rB_v6 (R1 X)).trans (R1_v6 X)
theorem R3_v3 : R3 X (Proc.devRef .tc main_v3) = srcK (X (Proc.devRef .tc main_arg1)) := (rC_v3 (R2 X)).trans (R2_v3 X)
theorem R3_v6 : R3 X (Proc.devRef .tc main_v6) = dstK (X (Proc.devRef .tc main_arg1)) := (rC_v6 (R2 X)).trans (R2_v6 X)
theorem R4_v3 : R4 X (Proc.devRef .tc main_v3) = srcK (X (Proc.devRef .tc main_arg1)) := (rD_v3 (R3 X)).trans (R3_v3 X)
theorem R4_v6 : R4 X (Proc.devRef .tc main_v6) = dstK (X (Proc.devRef .tc main_arg1)) := (rD_v6 (R3 X)).trans (R3_v6 X)
theorem R5_v3 : R5 X (Proc.devRef .tc main_v3) = srcK (X (Proc.devRef .tc main_arg1)) := (rE_v3 (R4 X)).trans (R4_v3 X)
theorem R5_v6 : R5 X (Proc.devRef .tc main_v6) = dstK (X (Proc.devRef .tc main_arg1)) := (rE_v6 (R4 X)).trans (R4_v6 X)
theorem R6_v3 : R6 X (Proc.devRef .tc main_v3) = srcK (X (Proc.devRef .tc main_arg1)) := (rG_v3 (R5 X)).trans (R5_v3 X)
theorem R6_v6 : R6 X (Proc.devRef .tc main_v6) = dstK (X (Proc.devRef .tc main_arg1)) := (rG_v6 (R5 X)).trans (R5_v6 X)
theorem R7_v3 : R7 X (Proc.devRef .tc main_v3) = srcK (X (Proc.devRef .tc main_arg1)) := (rH_v3 (R6 X)).trans (R6_v3 X)
theorem R7_v6 : R7 X (Proc.devRef .tc main_v6) = dstK (X (Proc.devRef .tc main_arg1)) := (rH_v6 (R6 X)).trans (R6_v6 X)

/-! ## The arguments the later stretches read -/

theorem R3_arg3 : R3 X (Proc.devRef .tc main_arg3) = (X (Proc.devRef .tc main_arg3)) := ((rC_arg3 (R2 X)).trans (rB_arg3 (R1 X))).trans (rA_arg3 X)
theorem R4_arg4 : R4 X (Proc.devRef .tc main_arg4) = (X (Proc.devRef .tc main_arg4)) :=
  (((rD_arg4 (R3 X)).trans (rC_arg4 (R2 X))).trans (rB_arg4 (R1 X))).trans (rA_arg4 X)
theorem R7_arg5 : R7 X (Proc.devRef .tc main_arg5) = (X (Proc.devRef .tc main_arg5)) :=
  ((((((rH_arg5 (R6 X)).trans (rG_arg5 (R5 X))).trans (rE_arg5 (R4 X))).trans (rD_arg5 (R3 X))).trans (rC_arg5 (R2 X))).trans (rB_arg5 (R1 X))).trans (rA_arg5 X)

/-! ## The edge weights, both times -/

theorem R3_v32 : R3 X (Proc.devRef .tc main_v32) = weightsK (X (Proc.devRef .tc main_arg1)) := by
  have h13 : R1 X (Proc.devRef .tc main_v13) = posK (dstK (X (Proc.devRef .tc main_arg1))) := rA_v13 X
  have h16 : R1 X (Proc.devRef .tc main_v16) = rsqK (dstK (X (Proc.devRef .tc main_arg1))) := rA_v16 X
  have hc3 : R1 X (Proc.devRef .tc main_cst_3) = constant (F := Ideal) S_ .f32 0x00000000#32 := rA_cst_3 X
  have h17 : R2 X (Proc.devRef .tc main_v17) = whereK (posK (dstK (X (Proc.devRef .tc main_arg1)))) (rsqK (dstK (X (Proc.devRef .tc main_arg1)))) (constant (F := Ideal) S_ .f32 0x00000000#32) := by
    refine (rB_v17 (R1 X)).trans ?_
    rw [h13, h16, hc3]
  refine (rC_v32 (R2 X)).trans ?_
  rw [h17, R2_v3 X, R2_v6 X]
  rfl

theorem R7_v75 : R7 X (Proc.devRef .tc main_v75) = weightsK (X (Proc.devRef .tc main_arg1)) := by
  have h60 : R6 X (Proc.devRef .tc main_v60) = whereK (posK (dstK (X (Proc.devRef .tc main_arg1)))) (rsqK (dstK (X (Proc.devRef .tc main_arg1)))) (constant (F := Ideal) S_ .f32 0x00000000#32) := by
    refine (rG_v60 (R5 X)).trans ?_
    rw [R5_v6 X]
  refine (rH_v75 (R6 X)).trans ?_
  rw [h60, R6_v3 X, R6_v6 X]
  rfl

/-! ## The two layers and the result -/

/-- Two row functions applied one after the other are their composite applied once: a row of `rowMap Ψ y` is `Ψ` of the same row of `y`. -/
theorem rowMap_comp {n : Nat} (Φ Ψ : (Fin 128 → EReal) → Fin 128 → EReal) (y : (Mat n 128).Idx → EReal) :
    rowMap Φ (rowMap Ψ y) = rowMap (fun row => Φ (Ψ row)) y := rfl

theorem R4_v48 : R4 X (Proc.devRef .tc main_v48) = layer1 (X (Proc.devRef .tc main_arg0)) (X (Proc.devRef .tc main_arg1)) (X (Proc.devRef .tc main_arg2)) (X (Proc.devRef .tc main_arg3)) := by
  have h7 : R3 X (Proc.devRef .tc main_v7) = dotR (X (Proc.devRef .tc main_arg0)) (X (Proc.devRef .tc main_arg2)) := ((rC_v7 (R2 X)).trans (rB_v7 (R1 X))).trans (rA_v7 X)
  refine (rD_v48 (R3 X)).trans ?_
  rw [h7, R3_v3 X, R3_v6 X, R3_v32 X, R3_arg3 X, dotR_eq]
  unfold layer1
  rfl

theorem R5_v50 : R5 X (Proc.devRef .tc main_v50)
    = rowMap (fun row => mmRow (X (Proc.devRef .tc main_arg4)) (reluRow row)) (layer1 (X (Proc.devRef .tc main_arg0)) (X (Proc.devRef .tc main_arg1)) (X (Proc.devRef .tc main_arg2)) (X (Proc.devRef .tc main_arg3))) := by
  refine (rE_v50 (R4 X)).trans ?_
  rw [R4_v48 X, R4_arg4 X, dotR_eq, reluR_eq, rowMap_comp]

theorem R8_v91 : R8 X (Proc.devRef .tc main_v91) = layer2 (X (Proc.devRef .tc main_arg0)) (X (Proc.devRef .tc main_arg1)) (X (Proc.devRef .tc main_arg2)) (X (Proc.devRef .tc main_arg3)) (X (Proc.devRef .tc main_arg4)) (X (Proc.devRef .tc main_arg5)) := by
  have h50 : R7 X (Proc.devRef .tc main_v50) = rowMap (fun row => mmRow (X (Proc.devRef .tc main_arg4)) (reluRow row)) (layer1 (X (Proc.devRef .tc main_arg0)) (X (Proc.devRef .tc main_arg1)) (X (Proc.devRef .tc main_arg2)) (X (Proc.devRef .tc main_arg3))) :=
    ((rH_v50 (R6 X)).trans (rG_v50 (R5 X))).trans (R5_v50 X)
  refine (rI_v91 (R7 X)).trans ?_
  rw [h50, R7_v3 X, R7_v6 X, R7_v75 X, R7_arg5 X]
  unfold layer2
  rfl

/-- The reference program's result buffer is the network's function of the six arguments. -/
theorem ref_value : after (ops (F := Ideal)) X (Proc.devRef .tc main_v92)
    = gcnOut (X (Proc.devRef .tc main_arg0)) (X (Proc.devRef .tc main_arg1)) (X (Proc.devRef .tc main_arg2)) (X (Proc.devRef .tc main_arg3)) (X (Proc.devRef .tc main_arg4)) (X (Proc.devRef .tc main_arg5)) := by
  rw [after_ops X]
  refine (rJ_v92 (R8 X)).trans ?_
  rw [R8_v91 X, lsmR_eq]
  unfold gcnOut
  rfl

/-- No operation writes an argument. -/
theorem ref_arg0 : after (ops (F := Ideal)) X (Proc.devRef .tc main_arg0) = (X (Proc.devRef .tc main_arg0)) := by
  after_results_simp <;> rfl
theorem ref_arg1 : after (ops (F := Ideal)) X (Proc.devRef .tc main_arg1) = (X (Proc.devRef .tc main_arg1)) := by
  after_results_simp <;> rfl
theorem ref_arg2 : after (ops (F := Ideal)) X (Proc.devRef .tc main_arg2) = (X (Proc.devRef .tc main_arg2)) := by
  after_results_simp <;> rfl
theorem ref_arg3 : after (ops (F := Ideal)) X (Proc.devRef .tc main_arg3) = (X (Proc.devRef .tc main_arg3)) := by
  after_results_simp <;> rfl
theorem ref_arg4 : after (ops (F := Ideal)) X (Proc.devRef .tc main_arg4) = (X (Proc.devRef .tc main_arg4)) := by
  after_results_simp <;> rfl
theorem ref_arg5 : after (ops (F := Ideal)) X (Proc.devRef .tc main_arg5) = (X (Proc.devRef .tc main_arg5)) := by
  after_results_simp <;> rfl

end Cert.Gcn

end
-- ==== Proof.lean ====
/-
  The certificate of the two-layer graph convolution kernel against its jnp reference, over the extended reals.

  Both programs compute   log-softmax per row of  A (relu (A (x · W1) + b1) · W2) + b2,   A the normalised edge
  aggregation over the edge list with one self loop per node. The kernel program runs the two products (the second after
  the rectifier) and the log-softmax as three kernel regions, each tiled over 25 blocks of 2000 rows, and the
  aggregation on the host between them; the reference runs everything on the host. The aggregation is the same host
  operations on both sides and is never opened. Each dense stage acts on every row by itself, so the tiled regions leave
  exactly the arrays the reference's whole-matrix operations compute: at the exact instance a change of float format
  is the identity, a product accumulated into zero is the plain sum, and the reference's second maximum with minus
  infinity changes nothing. No law that needs finite entries is used, so the precondition is never opened.

  The frames of the two kernel programs are the generated ones; the reference's frame is its run with the result
  dropped; the idealization rewrote nothing; and the two value runs end at the one function `Cert.Gcn.gcnOut` of
  arguments that agree.
-/
import proofs.«146059_j75814762709760_1_alg».proof.Defs
import proofs.«146059_j75814762709760_1_alg».proof.Proof.Gen.Kernel
import proofs.«146059_j75814762709760_1_alg».proof.Proof.Gen.Kernel.Skeleton
import proofs.«146059_j75814762709760_1_alg».proof.Proof.Gen.Kernel.Launch
import proofs.«146059_j75814762709760_1_alg».proof.Proof.Gen.Kernel.Points
import proofs.«146059_j75814762709760_1_alg».proof.Proof.Gen.Kernel.Frame
import proofs.«146059_j75814762709760_1_alg».proof.Proof.Gen.KernelIdeal
import proofs.«146059_j75814762709760_1_alg».proof.Proof.Gen.KernelIdeal.Skeleton
import proofs.«146059_j75814762709760_1_alg».proof.Proof.Gen.KernelIdeal.Launch
import proofs.«146059_j75814762709760_1_alg».proof.Proof.Gen.KernelIdeal.Points
import proofs.«146059_j75814762709760_1_alg».proof.Proof.Gen.KernelIdeal.Frame
import proofs.«146059_j75814762709760_1_alg».proof.Proof.Gen.ReferenceIdeal
import proofs.«146059_j75814762709760_1_alg».proof.Proof.Gen.Pre_finite_inputs
import proofs.«146059_j75814762709760_1_alg».proof.Proof.KRun
import proofs.«146059_j75814762709760_1_alg».proof.Proof.KValue
import proofs.«146059_j75814762709760_1_alg».proof.Proof.RValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono (fun _ h c =>
      ⟨(h c Cert.ReferenceIdeal.main_arg0).trans (Cert.Gcn.ref_arg0 _),
       (h c Cert.ReferenceIdeal.main_arg1).trans (Cert.Gcn.ref_arg1 _),
       (h c Cert.ReferenceIdeal.main_arg2).trans (Cert.Gcn.ref_arg2 _),
       (h c Cert.ReferenceIdeal.main_arg3).trans (Cert.Gcn.ref_arg3 _),
       (h c Cert.ReferenceIdeal.main_arg4).trans (Cert.Gcn.ref_arg4 _),
       (h c Cert.ReferenceIdeal.main_arg5).trans (Cert.Gcn.ref_arg5 _)⟩)
    (Cert.ReferenceIdeal.ValueP.run_after (F := Ideal) m ρ)

/-- Both programs end with the result array at the network's function of the arguments. -/
theorem algebraic : Cert.algebraic_KernelIdeal_ReferenceIdeal := by
  intro m ρ m' ρ' _ hagree
  refine ⟨fun c => Cert.Gcn.gcnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.kernel_value m ρ c), (h c).2⟩)
      (Cert.KernelIdeal.GenP.run_main (F := Ideal) m ρ)
  · refine (θ_run Cert.ReferenceIdeal.defs _ _).mono (fun _ h c => ⟨?_,
       (h c Cert.ReferenceIdeal.main_arg0).trans (Cert.Gcn.ref_arg0 _),
       (h c Cert.ReferenceIdeal.main_arg1).trans (Cert.Gcn.ref_arg1 _),
       (h c Cert.ReferenceIdeal.main_arg2).trans (Cert.Gcn.ref_arg2 _),
       (h c Cert.ReferenceIdeal.main_arg3).trans (Cert.Gcn.ref_arg3 _),
       (h c Cert.ReferenceIdeal.main_arg4).trans (Cert.Gcn.ref_arg4 _),
       (h c Cert.ReferenceIdeal.main_arg5).trans (Cert.Gcn.ref_arg5 _)⟩)
      (Cert.ReferenceIdeal.ValueP.run_after (F := Ideal) m' ρ')
    refine ((h c Cert.ReferenceIdeal.main_v92).trans (Cert.Gcn.ref_value _)).trans ?_
    show Cert.Gcn.gcnOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
